-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x128 : Shape := ⟨3, ![8192, 1, 128]⟩
abbrev S8192x81x128 : Shape := ⟨3, ![8192, 81, 128]⟩
abbrev S_ : Shape := ⟨0, ![]⟩

class Facts : Prop where
  bcast_S_S8192x1x128 : S_.BroadcastsInDim S8192x1x128 (![] : Fin 0 → Fin S8192x1x128.rank)
  reducesTo_S8192x1x128_S_d0_1_2 : S8192x1x128.ReducesTo [0, 1, 2] S_
  h_S_ : 0 < S_.numel
  bcast_S_S8192x81x128 : S_.BroadcastsInDim S8192x81x128 (![] : Fin 0 → Fin S8192x81x128.rank)
  reducesTo_S8192x81x128_S_d0_1_2 : S8192x81x128.ReducesTo [0, 1, 2] S_

variable [Facts]

def fn_part1 {F : FTy → Type} [FloatOps F] (main_arg4 : FVec F S8192x81x128 .f32) (main_v13 : IVec S_ 1) (main_v16 : IVec S8192x81x128 1) : IVec S_ 1 :=
  let main_c_5 : IVec S_ 1 := constantI S_ 1 1#1
  let main_v17 : IVec S_ 1 := (fun x v => Host.reduce IntOp.andi x v reducesTo_S8192x81x128_S_d0_1_2 h_S_) main_v16 main_c_5
  let main_v18 : IVec S_ 1 := andi main_v13 main_v17
  let main_v19 : FVec F S8192x81x128 .f32 := Host.absf main_arg4
  let main_cst_6 : FVec F S_ .f32 := constant S_ .f32 0x7F800000#32
  let main_v20 : FVec F S8192x81x128 .f32 := broadcastInDim S8192x81x128 ![] bcast_S_S8192x81x128 main_cst_6
  let main_v21 : IVec S8192x81x128 1 := cmpf .olt main_v19 main_v20
  let main_c_7 : IVec S_ 1 := constantI S_ 1 1#1
  let main_v22 : IVec S_ 1 := (fun x v => Host.reduce IntOp.andi x v reducesTo_S8192x81x128_S_d0_1_2 h_S_) main_v21 main_c_7
  let main_v23 : IVec S_ 1 := andi main_v18 main_v22
  main_v23

def fn {F : FTy → Type} [FloatOps F] (main_arg0 : FVec F S8192x1x128 .f32) (main_arg1 : FVec F S8192x81x128 .f32) (main_arg2 : FVec F S8192x81x128 .f32) (main_arg3 : FVec F S8192x81x128 .f32) (main_arg4 : FVec F S8192x81x128 .f32) : IVec S_ 1 :=
  let main_v0 : FVec F S8192x1x128 .f32 := Host.absf main_arg0
  let main_cst : FVec F S_ .f32 := constant S_ .f32 0x7F800000#32
  let main_v1 : FVec F S8192x1x128 .f32 := broadcastInDim S8192x1x128 ![] bcast_S_S8192x1x128 main_cst
  let main_v2 : IVec S8192x1x128 1 := cmpf .olt main_v0 main_v1
  let main_c : IVec S_ 1 := constantI S_ 1 1#1
  let main_v3 : IVec S_ 1 := (fun x v => Host.reduce IntOp.andi x v reducesTo_S8192x1x128_S_d0_1_2 h_S_) main_v2 main_c
  let main_v4 : FVec F S8192x81x128 .f32 := Host.absf main_arg1
  let main_cst_0 : FVec F S_ .f32 := constant S_ .f32 0x7F800000#32
  let main_v5 : FVec F S8192x81x128 .f32 := broadcastInDim S8192x81x128 ![] bcast_S_S8192x81x128 main_cst_0
  let main_v6 : IVec S8192x81x128 1 := cmpf .olt main_v4 main_v5
  let main_c_1 : IVec S_ 1 := constantI S_ 1 1#1
  let main_v7 : IVec S_ 1 := (fun x v => Host.reduce IntOp.andi x v reducesTo_S8192x81x128_S_d0_1_2 h_S_) main_v6 main_c_1
  let main_v8 : IVec S_ 1 := andi main_v3 main_v7
  let main_v9 : FVec F S8192x81x128 .f32 := Host.absf main_arg2
  let main_cst_2 : FVec F S_ .f32 := constant S_ .f32 0x7F800000#32
  let main_v10 : FVec F S8192x81x128 .f32 := broadcastInDim S8192x81x128 ![] bcast_S_S8192x81x128 main_cst_2
  let main_v11 : IVec S8192x81x128 1 := cmpf .olt main_v9 main_v10
  let main_c_3 : IVec S_ 1 := constantI S_ 1 1#1
  let main_v12 : IVec S_ 1 := (fun x v => Host.reduce IntOp.andi x v reducesTo_S8192x81x128_S_d0_1_2 h_S_) main_v11 main_c_3
  let main_v13 : IVec S_ 1 := andi main_v8 main_v12
  let main_v14 : FVec F S8192x81x128 .f32 := Host.absf main_arg3
  let main_cst_4 : FVec F S_ .f32 := constant S_ .f32 0x7F800000#32
  let main_v15 : FVec F S8192x81x128 .f32 := broadcastInDim S8192x81x128 ![] bcast_S_S8192x81x128 main_cst_4
  let main_v16 : IVec S8192x81x128 1 := cmpf .olt main_v14 main_v15
  fn_part1 (F := F) main_arg4 main_v13 main_v16
-- ==== Kernel.lean ====
abbrev S8192x1x128 : Shape := ⟨3, ![8192, 1, 128]⟩
abbrev S8192x81x128 : Shape := ⟨3, ![8192, 81, 128]⟩
abbrev S8192x128 : Shape := ⟨2, ![8192, 128]⟩
abbrev S64x128 : Shape := ⟨2, ![64, 128]⟩
abbrev S64x81x128 : Shape := ⟨3, ![64, 81, 128]⟩
abbrev S64x1x128 : Shape := ⟨3, ![64, 1, 128]⟩
abbrev S64x81x32 : Shape := ⟨3, ![64, 81, 32]⟩
abbrev S64x81 : Shape := ⟨2, ![64, 81]⟩
abbrev S64 : Shape := ⟨1, ![64]⟩
abbrev S64x1 : Shape := ⟨2, ![64, 1]⟩
abbrev S64x81x1 : Shape := ⟨3, ![64, 81, 1]⟩
abbrev S64x32 : Shape := ⟨2, ![64, 32]⟩

abbrev nBuf : Space → Nat
  | .hbm => 8
  | .vmem => 12
  | .smem => 0
  | _ => 0

abbrev bufTy : (tb : Table) → Fin (tcTables nBuf tb) → BufTy
  | .hbm, ⟨0, _⟩ => ⟨S8192x1x128, .f32⟩
  | .hbm, ⟨1, _⟩ => ⟨S8192x81x128, .f32⟩
  | .hbm, ⟨2, _⟩ => ⟨S8192x81x128, .f32⟩
  | .hbm, ⟨3, _⟩ => ⟨S8192x81x128, .f32⟩
  | .hbm, ⟨4, _⟩ => ⟨S8192x81x128, .f32⟩
  | .hbm, ⟨5, _⟩ => ⟨S8192x128, .f32⟩
  | .hbm, ⟨6, _⟩ => ⟨S8192x128, .f32⟩
  | .hbm, ⟨7, _⟩ => ⟨S8192x1x128, .f32⟩
  | .local _ .vmem, ⟨0, _⟩ => ⟨S64x128, .f32⟩
  | .local _ .vmem, ⟨1, _⟩ => ⟨S64x128, .f32⟩
  | .local _ .vmem, ⟨2, _⟩ => ⟨S64x81x128, .f32⟩
  | .local _ .vmem, ⟨3, _⟩ => ⟨S64x81x128, .f32⟩
  | .local _ .vmem, ⟨4, _⟩ => ⟨S64x81x128, .f32⟩
  | .local _ .vmem, ⟨5, _⟩ => ⟨S64x81x128, .f32⟩
  | .local _ .vmem, ⟨6, _⟩ => ⟨S64x81x128, .f32⟩
  | .local _ .vmem, ⟨7, _⟩ => ⟨S64x81x128, .f32⟩
  | .local _ .vmem, ⟨8, _⟩ => ⟨S64x81x128, .f32⟩
  | .local _ .vmem, ⟨9, _⟩ => ⟨S64x81x128, .f32⟩
  | .local _ .vmem, ⟨10, _⟩ => ⟨S64x128, .f32⟩
  | .local _ .vmem, ⟨11, _⟩ => ⟨S64x128, .f32⟩
  | _, _ => ⟨S8192x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x81x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x81x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x81x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x81x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8192x1x128_S8192x128 : S8192x1x128.ShapeCasts S8192x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x81x128_S64x81x128_0_0_0 : ∀ a, (![0, 0, 0] : Fin 3 → Nat) a + S64x81x128.size a ≤ S64x81x128.size a
  h_S64x81x128 : 0 < S64x81x128.numel
  shapeCasts_S64x128_S64x1x128 : S64x128.ShapeCasts S64x1x128
  broadcasts_S64x1x128_S64x81x128 : S64x1x128.Broadcasts S64x81x128
  slices_S64x81x128_o0_0_0_S64x81x32 : S64x81x128.Slices ![0, 0, 0] S64x81x32
  reduces_S64x81x32_S64x81 : S64x81x32.Reduces [2] S64x81
  reduces_S64x81_S64 : S64x81.Reduces [1] S64
  shapeCasts_S64_S64x1 : S64.ShapeCasts S64x1
  broadcasts_S64x1_S64x81 : S64x1.Broadcasts S64x81
  slices_S64x81x128_o0_0_32_S64x81x32 : S64x81x128.Slices ![0, 0, 32] S64x81x32
  slices_S64x81x128_o0_0_64_S64x81x32 : S64x81x128.Slices ![0, 0, 64] S64x81x32
  slices_S64x81x128_o0_0_96_S64x81x32 : S64x81x128.Slices ![0, 0, 96] S64x81x32
  shapeCasts_S64x81_S64x81x1 : S64x81.ShapeCasts S64x81x1
  broadcasts_S64x81x1_S64x81x32 : S64x81x1.Broadcasts S64x81x32
  reduces_S64x81x32_S64x32 : S64x81x32.Reduces [1] S64x32
  concatenates_S64x32_S64x32_S64x32_S64x32_S64x128_d1 : Shape.Concatenates [S64x32, S64x32, S64x32, S64x32] S64x128 1
  shapeCasts_S8192x128_S8192x1x128 : S8192x128.ShapeCasts S8192x1x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S8192x128.size a
  hwx0_0 : ∀ i : grid0.Coords, EltTy.bits .f32 = 32 ∨ (Rect.block (s := S8192x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x81x128.size a ≤ S8192x81x128.size a
  hwx0_1 : ∀ i : grid0.Coords, EltTy.bits .f32 = 32 ∨ (Rect.block (s := S8192x81x128) S64x81x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x81x128.size a ≤ S8192x81x128.size a
  hwx0_2 : ∀ i : grid0.Coords, EltTy.bits .f32 = 32 ∨ (Rect.block (s := S8192x81x128) S64x81x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x81x128.size a ≤ S8192x81x128.size a
  hwx0_3 : ∀ i : grid0.Coords, EltTy.bits .f32 = 32 ∨ (Rect.block (s := S8192x81x128) S64x81x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x81x128.size a ≤ S8192x81x128.size a
  hwx0_4 : ∀ i : grid0.Coords, EltTy.bits .f32 = 32 ∨ (Rect.block (s := S8192x81x128) S64x81x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S8192x128.size a
  hwx0_5 : ∀ i : grid0.Coords, EltTy.bits .f32 = 32 ∨ (Rect.block (s := S8192x128) S64x128.size (cc0_transform_5 i) (hinb0_5 i)).WholeWords (EltTy.packing .f32)

variable [Facts₀]

abbrev win0_0 : Pipeline.Window sig grid0 :=
  Pipeline.Window.ofSpec (Memref.whole main_v0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x81x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x81x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x81x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x81x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1x128 : Shape := ⟨3, ![8192, 1, 128]⟩
abbrev S8192x81x128 : Shape := ⟨3, ![8192, 81, 128]⟩
abbrev S8192x1x4x32 : Shape := ⟨4, ![8192, 1, 4, 32]⟩
abbrev S8192x4x1x32 : Shape := ⟨4, ![8192, 4, 1, 32]⟩
abbrev S8192x81x4x32 : Shape := ⟨4, ![8192, 81, 4, 32]⟩
abbrev S8192x4x81x32 : Shape := ⟨4, ![8192, 4, 81, 32]⟩
abbrev S8192x4x1x81 : Shape := ⟨4, ![8192, 4, 1, 81]⟩
abbrev S_ : Shape := ⟨0, ![]⟩
abbrev S8192x4x81 : Shape := ⟨3, ![8192, 4, 81]⟩
abbrev S8192x4x1 : Shape := ⟨3, ![8192, 4, 1]⟩
abbrev S8192x4x1x1 : Shape := ⟨4, ![8192, 4, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S8192x1x128, .f32⟩
  | .hbm, ⟨1, _⟩ => ⟨S8192x81x128, .f32⟩
  | .hbm, ⟨2, _⟩ => ⟨S8192x81x128, .f32⟩
  | .hbm, ⟨3, _⟩ => ⟨S8192x81x128, .f32⟩
  | .hbm, ⟨4, _⟩ => ⟨S8192x81x128, .f32⟩
  | .hbm, ⟨5, _⟩ => ⟨S8192x1x4x32, .f32⟩
  | .hbm, ⟨6, _⟩ => ⟨S8192x4x1x32, .f32⟩
  | .hbm, ⟨7, _⟩ => ⟨S8192x81x4x32, .f32⟩
  | .hbm, ⟨8, _⟩ => ⟨S8192x4x81x32, .f32⟩
  | .hbm, ⟨9, _⟩ => ⟨S8192x81x4x32, .f32⟩
  | .hbm, ⟨10, _⟩ => ⟨S8192x4x81x32, .f32⟩
  | .hbm, ⟨11, _⟩ => ⟨S8192x81x4x32, .f32⟩
  | .hbm, ⟨12, _⟩ => ⟨S8192x4x81x32, .f32⟩
  | .hbm, ⟨13, _⟩ => ⟨S8192x81x4x32, .f32⟩
  | .hbm, ⟨14, _⟩ => ⟨S8192x4x81x32, .f32⟩
  | .hbm, ⟨15, _⟩ => ⟨S8192x4x1x81, .f32⟩
  | .hbm, ⟨16, _⟩ => ⟨S_, .f32⟩
  | .hbm, ⟨17, _⟩ => ⟨S8192x4x1x81, .f32⟩
  | .hbm, ⟨18, _⟩ => ⟨S8192x4x1x81, .f32⟩
  | .hbm, ⟨19, _⟩ => ⟨S8192x4x1x81, .f32⟩
  | .hbm, ⟨20, _⟩ => ⟨S_, .f32⟩
  | .hbm, ⟨21, _⟩ => ⟨S8192x4x1x81, .f32⟩
  | .hbm, ⟨22, _⟩ => ⟨S8192x4x1x81, .f32⟩
  | .hbm, ⟨23, _⟩ => ⟨S8192x4x81x32, .f32⟩
  | .hbm, ⟨24, _⟩ => ⟨S_, .f32⟩
  | .hbm, ⟨25, _⟩ => ⟨S8192x4x81, .f32⟩
  | .hbm, ⟨26, _⟩ => ⟨S_, .f32⟩
  | .hbm, ⟨27, _⟩ => ⟨S8192x4x81, .f32⟩
  | .hbm, ⟨28, _⟩ => ⟨S8192x4x81, .f32⟩
  | .hbm, ⟨29, _⟩ => ⟨S8192x4x1x81, .f32⟩
  | .hbm, ⟨30, _⟩ => ⟨S8192x4x1x81, .f32⟩
  | .hbm, ⟨31, _⟩ => ⟨S8192x4x1x81, .f32⟩
  | .hbm, ⟨32, _⟩ => ⟨S_, .f32⟩
  | .hbm, ⟨33, _⟩ => ⟨S8192x4x1, .f32⟩
  | .hbm, ⟨34, _⟩ => ⟨S_, .f32⟩
  | .hbm, ⟨35, _⟩ => ⟨S8192x4x1, .f32⟩
  | .hbm, ⟨36, _⟩ => ⟨S8192x4x1, .f32⟩
  | .hbm, ⟨37, _⟩ => ⟨S8192x4x1x1, .f32⟩
  | .hbm, ⟨38, _⟩ => ⟨S8192x4x1x81, .f32⟩
  | .hbm, ⟨39, _⟩ => ⟨S8192x4x1x81, .f32⟩
  | .hbm, ⟨40, _⟩ => ⟨S8192x4x1x81, .f32⟩
  | .hbm, ⟨41, _⟩ => ⟨S_, .f32⟩
  | .hbm, ⟨42, _⟩ => ⟨S8192x4x1, .f32⟩
  | .hbm, ⟨43, _⟩ => ⟨S8192x4x1x1, .f32⟩
  | .hbm, ⟨44, _⟩ => ⟨S8192x4x1x81, .f32⟩
  | .hbm, ⟨45, _⟩ => ⟨S8192x4x1x81, .f32⟩
  | .hbm, ⟨46, _⟩ => ⟨S8192x4x1x32, .f32⟩
  | .hbm, ⟨47, _⟩ => ⟨S8192x1x4x32, .f32⟩
  | .hbm, ⟨48, _⟩ => ⟨S8192x1x128, .f32⟩
  | _, _ => ⟨S8192x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  shapeCasts_S8192x1x128_S8192x1x4x32 : S8192x1x128.ShapeCasts S8192x1x4x32
  transposes_S8192x1x4x32_S8192x4x1x32_0_2_1_3 : S8192x1x4x32.Transposes [0, 2, 1, 3] S8192x4x1x32
  shapeCasts_S8192x81x128_S8192x81x4x32 : S8192x81x128.ShapeCasts S8192x81x4x32
  transposes_S8192x81x4x32_S8192x4x81x32_0_2_1_3 : S8192x81x4x32.Transposes [0, 2, 1, 3] S8192x4x81x32
  bcast_S_S8192x4x1x81 : S_.BroadcastsInDim S8192x4x1x81 (![] : Fin 0 → Fin S8192x4x1x81.rank)
  reducesTo_S8192x4x81x32_S8192x4x81_d3 : S8192x4x81x32.ReducesTo [3] S8192x4x81
  h_S_ : 0 < S_.numel
  bcast_S_S8192x4x81 : S_.BroadcastsInDim S8192x4x81 (![] : Fin 0 → Fin S8192x4x81.rank)
  bcast_S8192x4x81_S8192x4x1x81_0_1_3 : S8192x4x81.BroadcastsInDim S8192x4x1x81 (![0, 1, 3] : Fin 3 → Fin S8192x4x1x81.rank)
  reducesTo_S8192x4x1x81_S8192x4x1_d3 : S8192x4x1x81.ReducesTo [3] S8192x4x1
  bcast_S_S8192x4x1 : S_.BroadcastsInDim S8192x4x1 (![] : Fin 0 → Fin S8192x4x1.rank)
  bcast_S8192x4x1_S8192x4x1x1_0_1_2 : S8192x4x1.BroadcastsInDim S8192x4x1x1 (![0, 1, 2] : Fin 3 → Fin S8192x4x1x1.rank)
  bcast_S8192x4x1x1_S8192x4x1x81_0_1_2_3 : S8192x4x1x1.BroadcastsInDim S8192x4x1x81 (![0, 1, 2, 3] : Fin 4 → Fin S8192x4x1x81.rank)
  transposes_S8192x4x1x32_S8192x1x4x32_0_2_1_3 : S8192x4x1x32.Transposes [0, 2, 1, 3] S8192x1x4x32
  shapeCasts_S8192x1x4x32_S8192x1x128 : S8192x1x4x32.ShapeCasts S8192x1x128
  dot_S8192x4x1x32_S8192x4x81x32_S8192x4x1x81_3_3_2_2_01_01_wf : DotDims.WF S8192x4x1x32 S8192x4x81x32 S8192x4x1x81 [3] [3] [2] [2] [0, 1] [0, 1]
  dot_S8192x4x1x81_S8192x4x81x32_S8192x4x1x32_3_2_2_3_01_01_wf : DotDims.WF S8192x4x1x81 S8192x4x81x32 S8192x4x1x32 [3] [2] [2] [3] [0, 1] [0, 1]

variable [Facts₀]

def dot_S8192x4x1x32_S8192x4x81x32_S8192x4x1x81_3_3_2_2_01_01 : DotDims S8192x4x1x32 S8192x4x81x32 S8192x4x1x81 where
  lhsContracting := [3]
  rhsContracting := [3]
  lhsNonContracting := [2]
  rhsNonContracting := [2]
  lhsBatch := [0, 1]
  rhsBatch := [0, 1]
  wf := dot_S8192x4x1x32_S8192x4x81x32_S8192x4x1x81_3_3_2_2_01_01_wf
def dot_S8192x4x1x81_S8192x4x81x32_S8192x4x1x32_3_2_2_3_01_01 : DotDims S8192x4x1x81 S8192x4x81x32 S8192x4x1x32 where
  lhsContracting := [3]
  rhsContracting := [2]
  lhsNonContracting := [2]
  rhsNonContracting := [3]
  lhsBatch := [0, 1]
  rhsBatch := [0, 1]
  wf := dot_S8192x4x1x81_S8192x4x81x32_S8192x4x1x32_3_2_2_3_01_01_wf

class Facts : Prop extends Facts₀ where

variable [Facts]
-- ==== Proof.Spec.lean ====
/-
  Windowed relative-position attention with one query token per batch row, stated once for both programs.

  For a batch row the data are a query row q (128 lanes) and, for each of the 81 window positions j, rows k j,
  v j, qr j, kr j (128 lanes each). The 128 lanes are four heads of 32 lanes; head h owns lanes 32h .. 32h+31.
  The score of position j under head h is the sum over the head's lanes of the content-content, content-position
  and position-content products, each scaled by the same f32 word s:

      fused :  Σ_d ( q·(k + kr) + qr·k ) · s            (one elementwise pass, then one sum)
      split :  (Σ_d q·k)·s + (Σ_d q·kr)·s + (Σ_d qr·k)·s (three sums, each scaled, then added)

  The two agree when every entry is a real number, because then products distribute over sums; on the extended
  reals they need not (∞·(1 + (−1)) = 0 but ∞·1 + ∞·(−1) = −∞), which is why finiteness of the inputs is used.
  From the scores the output lane 32h+d is the softmax-weighted sum of v over j:

      M = max_j score j (from −∞),  w j = exp(score j − M) / Σ_j' exp(score j' − M),  out = Σ_j w j · v j (32h+d).
-/
import Idealize.ShloMosaic.PureOps.Ideal
import Idealize.ShloMosaic.PureOps.Ideal.Laws
import Idealize.ShloMosaic.Lib.ValueIdx

noncomputable section

namespace Cert.RelAttn

open Idealize.ShloMosaic Idealize.ShloMosaic.ValueIdx

/-- The score scale: the f32 word both programs multiply by (the nearest f32 to 32^(-1/2); only its finiteness
    is used, never its value). -/
abbrev scale : EReal := Ideal.ofBits .f32 0x3E3504F3#32

/-- The f32 pattern of −∞, from which both programs start a row's maximum. -/
abbrev negInf : EReal := Ideal.ofBits .f32 0xFF800000#32

/-- Lane `32h + d`: position `d` of head `h`. -/
def lane (h : Fin 4) (d : Fin 32) : Fin 128 := ⟨32 * h.val + d.val, by have := h.isLt; have := d.isLt; omega⟩

/-- The head a lane belongs to, and its position inside the head. -/
def headOf (c : Fin 128) : Fin 4 := ⟨c.val / 32, by have := c.isLt; omega⟩
def posOf (c : Fin 128) : Fin 32 := ⟨c.val % 32, Nat.mod_lt _ (by decide)⟩

theorem lane_headOf_posOf (c : Fin 128) : lane (headOf c) (posOf c) = c :=
  Fin.ext (by show 32 * (c.val / 32) + c.val % 32 = c.val; omega)

/-- A row's maximum, folded from −∞. -/
def rowMax (lg : Fin 81 → EReal) : EReal := (Finset.univ : Finset (Fin 81)).fold max negInf lg

/-- The softmax weight of position `j` among a row of 81 scores. -/
def weight (lg : Fin 81 → EReal) (j : Fin 81) : EReal :=
  Ideal.div (Ideal.exp (lg j - rowMax lg)) (∑ j' : Fin 81, Ideal.exp (lg j' - rowMax lg))

/-- The weighted sum of 81 values under the softmax of 81 scores. -/
def attend (lg : Fin 81 → EReal) (v : Fin 81 → EReal) : EReal := ∑ j : Fin 81, weight lg j * v j

/-- The score of position `j` under head `h`, computed in one fused elementwise pass. -/
def fusedScore (q : Fin 128 → EReal) (k kr qr : Fin 81 → Fin 128 → EReal) (h : Fin 4) (j : Fin 81) : EReal :=
  ∑ d : Fin 32, (q (lane h d) * (k j (lane h d) + kr j (lane h d)) + qr j (lane h d) * k j (lane h d)) * scale

/-- The same score as three separately scaled sums. -/
def splitScore (q : Fin 128 → EReal) (k kr qr : Fin 81 → Fin 128 → EReal) (h : Fin 4) (j : Fin 81) : EReal :=
  ((∑ d : Fin 32, q (lane h d) * k j (lane h d)) * scale + (∑ d : Fin 32, q (lane h d) * kr j (lane h d)) * scale)
    + (∑ d : Fin 32, qr j (lane h d) * k j (lane h d)) * scale

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scale word denotes a real number (its exponent field is not all ones). -/
theorem scale_real : ∃ s : ℝ, scale = (s : EReal) := by
  have hex : ¬ ((0x3E3504F3#32 : BitVec 32).extractLsb' 23 8).toNat = 2 ^ 8 - 1 := by decide
  unfold scale Ideal.ofBits Ideal.ieee
  dsimp only
  rw [if_neg hex]
  split_ifs <;> exact ⟨_, rfl⟩

/-- THE LAW: on real entries the fused score is the split score. -/
theorem fusedScore_eq_splitScore (q : Fin 128 → ℝ) (k kr qr : Fin 81 → Fin 128 → ℝ) (h : Fin 4) (j : Fin 81) :
    fusedScore (fun c => (q c : EReal)) (fun j c => (k j c : EReal)) (fun j c => (kr j c : EReal)) (fun j c => (qr j c : EReal)) h j
      = splitScore (fun c => (q c : EReal)) (fun j c => (k j c : EReal)) (fun j c => (kr j c : EReal)) (fun j c => (qr j c : EReal)) h j := by
  obtain ⟨s, hs⟩ := scale_real
  unfold fusedScore splitScore
  rw [hs]
  simp only [← EReal.coe_add, ← EReal.coe_mul, ← coe_sum]
  congr 1
  simp only [Finset.sum_mul, ← Finset.sum_add_distrib]
  exact Finset.sum_congr rfl fun d _ => by ring

/-- Starting the maximum again from −∞ changes nothing. -/
theorem max_negInf_rowMax (lg : Fin 81 → EReal) : max negInf (rowMax lg) = rowMax lg := by
  unfold rowMax
  exact max_eq_right ((Finset.le_fold_max _).mpr (Or.inl le_rfl))

/-! ## The whole arrays

The query is an array [8192, 1, 128]; keys, values and the two relative arrays are [8192, 81, 128]. Batch row `b` of
the result depends only on batch row `b` of the five arrays. -/

/-- Batch row `b` of the query array. -/
def qRow (Q : (⟨3, ![8192, 1, 128]⟩ : Shape).Idx → EReal) (b : Fin 8192) : Fin 128 → EReal :=
  fun c => Q (ix3 b (0 : Fin 1) c)

/-- Batch row `b` of a [8192, 81, 128] array: 81 rows of 128 lanes. -/
def kvRow (K : (⟨3, ![8192, 81, 128]⟩ : Shape).Idx → EReal) (b : Fin 8192) : Fin 81 → Fin 128 → EReal :=
  fun j c => K (ix3 b j c)

/-- The result array [8192, 1, 128] for a given way of scoring: entry (b, 0, c) attends over the 81 positions of
    batch row `b` with the scores of lane `c`'s head, and sums lane `c` of the values. -/
def outWith (score : (Fin 128 → EReal) → (Fin 81 → Fin 128 → EReal) → (Fin 81 → Fin 128 → EReal) → (Fin 81 → Fin 128 → EReal)
      → Fin 4 → Fin 81 → EReal)
    (Q : (⟨3, ![8192, 1, 128]⟩ : Shape).Idx → EReal) (K V Qr Kr : (⟨3, ![8192, 81, 128]⟩ : Shape).Idx → EReal) :
    (⟨3, ![8192, 1, 128]⟩ : Shape).Idx → EReal := fun i =>
  let b : Fin 8192 := i 0
  let c : Fin 128 := i 2
  attend (score (qRow Q b) (kvRow K b) (kvRow Kr b) (kvRow Qr b) (headOf c)) (fun j => V (ix3 b j c))

/-- The result with fused scores (what the kernel computes). -/
def outFused := outWith fusedScore
/-- The result with split scores (what the reference computes). -/
def outSplit := outWith splitScore

/-- On arrays of real entries the two results are one array (the values `V` may be anything). -/
theorem outFused_eq_outSplit (Q : (⟨3, ![8192, 1, 128]⟩ : Shape).Idx → EReal) (K V Qr Kr : (⟨3, ![8192, 81, 128]⟩ : Shape).Idx → EReal)
    (hQ : ∀ i, ∃ r : ℝ, Q i = (r : EReal)) (hK : ∀ i, ∃ r : ℝ, K i = (r : EReal))
    (hQr : ∀ i, ∃ r : ℝ, Qr i = (r : EReal)) (hKr : ∀ i, ∃ r : ℝ, Kr i = (r : EReal)) :
    outFused Q K V Qr Kr = outSplit Q K V Qr Kr := by
  choose q hq using hQ
  choose k hk using hK
  choose qr hqr using hQr
  choose kr hkr using hKr
  funext i
  unfold outFused outSplit outWith
  dsimp only
  congr 1
  funext j
  have e1 : qRow Q (i 0) = fun c => ((q (ix3 (i 0) (0 : Fin 1) c) : ℝ) : EReal) := funext fun c => hq _
  have e2 : kvRow K (i 0) = fun j c => ((k (ix3 (i 0) j c) : ℝ) : EReal) := funext fun j => funext fun c => hk _
  have e3 : kvRow Kr (i 0) = fun j c => ((kr (ix3 (i 0) j c) : ℝ) : EReal) := funext fun j => funext fun c => hkr _
  have e4 : kvRow Qr (i 0) = fun j c => ((qr (ix3 (i 0) j c) : ℝ) : EReal) := funext fun j => funext fun c => hqr _
  rw [e1, e2, e3, e4]
  exact fusedScore_eq_splitScore _ _ _ _ _ _

end Cert.RelAttn

end
-- ==== Proof.HeadSoftmax.lean ====
/-
  One head of the kernel's body, written once for any of the four lane offsets 0, 32, 64, 96.

  The body forms the scaled score terms t[r, j, c] of a 64-row block in one elementwise pass; then, per head, it cuts
  the head's 32 lanes out of t, sums them to scores [64, 81], turns each row of 81 scores into softmax weights (row
  maximum from −∞, exponentials, their sum, the quotient), cuts the head's 32 lanes out of the values, weights them and
  sums over the 81 positions. The three functions below are those stages as the body spells them; each is read at an
  index as the corresponding function of Spec.
-/
import proofs.«103271_j88862873354524_2_alg».proof.Proof.Gen.KernelIdeal.Skeleton
import proofs.«103271_j88862873354524_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Head

open Cert.KernelIdeal Cert.KernelIdeal.Gen Idealize.ShloMosaic Idealize.ShloMosaic.ValueIdx Cert.RelAttn

/-! ## Layout operations and one-axis reductions read at an index given by coordinates

Three kinds of reading, each with its indices written by coordinates: a rank-3 array cut along its last axis; the source
index of a one-axis reduction (the reduced index with the coordinate put back on the dropped axis); and a unit axis added
by a shape cast and then spread by a broadcast ([a] → [a, 1] → [a, b]; [a, b] → [a, b, 1] → [a, b, c];
[a, b] → [a, 1, b] → [a, c, b]). -/

section Coordinates
variable {α : Type}

/-- A rank-3 array cut along its last axis from `o` reads, at `(a, b, d)`, the source at `(a, b, k)` with `k = o + d`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (d : Fin m) (k : Fin n2) (hk : k.val = o + d.val) :
    extractStridedSlice ⟨3, ![n0, n1, m]⟩ ![0, 0, o] X h (ix3 a b d) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- Over `(r, j)`, the index of a rank-3 array with `d` inserted on the last axis is `(r, j, d)`. -/
theorem lift3_axis2 {n0 n1 n2 : Nat} (h : (⟨3, ![n0, n1, n2]⟩ : Shape).Reduces [2] ⟨2, ![n0, n1]⟩)
    (r : Fin n0) (j : Fin n1) (d : Fin n2) : h.lift (ix2 r j) d = ix3 r j d :=
  funext fun c => Fin.ext (by match c with | ⟨0, _⟩ => rfl | ⟨1, _⟩ => rfl | ⟨2, _⟩ => rfl)

/-- Over `(r, d)`, the index of a rank-3 array with `j` inserted on the middle axis is `(r, j, d)`. -/
theorem lift3_axis1 {n0 n1 n2 : Nat} (h : (⟨3, ![n0, n1, n2]⟩ : Shape).Reduces [1] ⟨2, ![n0, n2]⟩)
    (r : Fin n0) (d : Fin n2) (j : Fin n1) : h.lift (ix2 r d) j = ix3 r j d :=
  funext fun c => Fin.ext (by match c with | ⟨0, _⟩ => rfl | ⟨1, _⟩ => rfl | ⟨2, _⟩ => rfl)

/-- Over row `r`, the index of a matrix with `j` inserted on the column axis is `(r, j)`. -/
theorem lift2_axis1 {n0 n1 : Nat} (h : (⟨2, ![n0, n1]⟩ : Shape).Reduces [1] ⟨1, ![n0]⟩)
    (r : Fin n0) (j : Fin n1) : h.lift (ix1 r) j = ix2 r j :=
  funext fun c => Fin.ext (by match c with | ⟨0, _⟩ => rfl | ⟨1, _⟩ => rfl)

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, q, e)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (e : Fin c) :
    broadcastTo ⟨3, ![a, b, c]⟩ v h (ix3 p q e) = v (ix3 p q (0 : Fin 1)) := by
  refine broadcastTo_apply v h (ix3 p q e) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, b]` array cast to `[a, 1, b]` reads, at `(i, u, j)`, the operand at `(i, j)`. -/
theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(p, e, q)`, the operand at `(p, 0, q)`. -/
theorem broadcastTo_a1b_acb_apply {a b c : ℕ} (v : (⟨3, ![a, 1, b]⟩ : Shape).Idx → α)
    (h : (⟨3, ![a, 1, b]⟩ : Shape).Broadcasts ⟨3, ![a, c, b]⟩) (p : Fin a) (e : Fin c) (q : Fin b) :
    broadcastTo ⟨3, ![a, c, b]⟩ v h (ix3 p e q) = v (ix3 p (0 : Fin 1) q) := by
  refine broadcastTo_apply v h (ix3 p e q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if b = 1 then 0 else q.val
    split
    · have := q.isLt; omega
    · rfl

end Coordinates

/-- The scores of one head: the head's 32 lanes of the score terms, summed. -/
def scores (t : FVec Ideal S64x81x128 .f32) (off : Fin 3 → Nat) (hs : S64x81x128.Slices off S64x81x32) : FVec Ideal S64x81 .f32 :=
  multiReduction .add [2] S64x81 (extractStridedSlice S64x81x32 off t hs) 0x00000000#32 reduces_S64x81x32_S64x81 (.inl rfl) rfl

/-- A block's softmax weights from its scores, row by row. -/
def weights (lg : FVec Ideal S64x81 .f32) : FVec Ideal S64x81 .f32 :=
  have v16 : FVec Ideal S64 .f32 := multiReduction .maximumf [1] S64 lg 0xFF800000#32 reduces_S64x81_S64 (.inl rfl) rfl
  have v17 : FVec Ideal S64x1 .f32 := shapeCast S64x1 v16 shapeCasts_S64_S64x1
  have v18 : FVec Ideal S64x81 .f32 := broadcastTo S64x81 v17 broadcasts_S64x1_S64x81
  have v19 : FVec Ideal S64x81 .f32 := subf lg v18
  have v20 : FVec Ideal S64x81 .f32 := exp v19
  have v21 : FVec Ideal S64 .f32 := multiReduction .add [1] S64 v20 0x00000000#32 reduces_S64x81_S64 (.inl rfl) rfl
  have v22 : FVec Ideal S64x1 .f32 := shapeCast S64x1 v21 shapeCasts_S64_S64x1
  have v23 : FVec Ideal S64x81 .f32 := broadcastTo S64x81 v22 broadcasts_S64x1_S64x81
  divf v20 v23

/-- One head's output lanes: the head's 32 lanes of the values, weighted and summed over the 81 positions. -/
def mix (w : FVec Ideal S64x81 .f32) (v : FVec Ideal S64x81x128 .f32) (off : Fin 3 → Nat) (hs : S64x81x128.Slices off S64x81x32) : FVec Ideal S64x32 .f32 :=
  have v58 : FVec Ideal S64x81x32 .f32 := extractStridedSlice S64x81x32 off v hs
  have v59 : FVec Ideal S64x81x1 .f32 := shapeCast S64x81x1 w shapeCasts_S64x81_S64x81x1
  have v60 : FVec Ideal S64x81x32 .f32 := broadcastTo S64x81x32 v59 broadcasts_S64x81x1_S64x81x32
  have v61 : FVec Ideal S64x81x32 .f32 := mulf v60 v58
  multiReduction .add [1] S64x32 v61 0x00000000#32 reduces_S64x81x32_S64x32 (.inl rfl) rfl

/-- The score term at row `r`, position `j`, lane `c`: `(q·(k + kr) + qr·k)·s`. -/
theorem scoreTerm_apply (v0 : FVec Ideal S64x128 .f32) (v2 v4 v5 : FVec Ideal S64x81x128 .f32) (r : Fin 64) (j : Fin 81) (c : Fin 128) :
    k0_pay2 (F := Ideal) v0 v2 v4 v5 (ix3 r j c)
      = (v0 (ix2 r c) * (v2 (ix3 r j c) + v5 (ix3 r j c)) + v4 (ix3 r j c) * v2 (ix3 r j c)) * scale := by
  -- the query row, given a unit middle axis and spread over the 81 positions, reads the row's lane
  have hq : broadcastTo S64x81x128 (shapeCast S64x1x128 (shapeCast S64x128 v0 shapeCasts_S64x128_S64x128)
        shapeCasts_S64x128_S64x1x128) broadcasts_S64x1x128_S64x81x128 (ix3 r j c) = v0 (ix2 r c) := by
    refine (broadcastTo_a1b_acb_apply _ _ r j c).trans ?_
    refine (shapeCast_ab_a1b_apply _ _ r (0 : Fin 1) c).trans ?_
    rw [shapeCast_self]
  unfold k0_pay2
  show (broadcastTo S64x81x128 (shapeCast S64x1x128 (shapeCast S64x128 v0 shapeCasts_S64x128_S64x128)
        shapeCasts_S64x128_S64x1x128) broadcasts_S64x1x128_S64x81x128 (ix3 r j c) * (v2 (ix3 r j c) + v5 (ix3 r j c))
      + v4 (ix3 r j c) * v2 (ix3 r j c)) * scale = _
  rw [hq]

/-- A head's score at (r, j) is the sum of its 32 lanes of the score terms. -/
theorem scores_apply (t : FVec Ideal S64x81x128 .f32) (o : Nat) (ho : o + 32 ≤ 128) (hs : S64x81x128.Slices ![0, 0, o] S64x81x32)
    (r : Fin 64) (j : Fin 81) :
    scores t ![0, 0, o] hs (ix2 r j) = ∑ d : Fin 32, t (ix3 r j (⟨o + d.val, by have := d.isLt; omega⟩ : Fin 128)) := by
  unfold scores
  refine (Ideal.multiReduction_add_single _ _ reduces_S64x81x32_S64x81 _ _ (ix2 r j)).trans ?_
  show ∑ d : Fin 32, extractStridedSlice S64x81x32 ![0, 0, o] t hs (reduces_S64x81x32_S64x81.lift (ix2 r j) d) = _
  refine Finset.sum_congr rfl fun d _ => ?_
  rw [lift3_axis2]
  exact slice3_axis2_apply o t hs r j d _ rfl

/-- A block's row maxima, kept as a column and spread back over the 81 positions, read the row's maximum from −∞. -/
theorem rowMax_apply (lg : FVec Ideal S64x81 .f32) (r : Fin 64) (j : Fin 81) :
    broadcastTo S64x81 (shapeCast S64x1 (multiReduction .maximumf [1] S64 lg 0xFF800000#32 reduces_S64x81_S64 (.inl rfl) rfl)
      shapeCasts_S64_S64x1) broadcasts_S64x1_S64x81 (ix2 r j) = rowMax (fun j' => lg (ix2 r j')) := by
  refine (broadcastTo_a1_ab_apply _ _ r j).trans ?_
  refine (shapeCast_a_a1_apply _ _ r (0 : Fin 1)).trans ?_
  refine (Ideal.multiReduction_maximumf_single lg _ reduces_S64x81_S64 _ _ (ix1 r)).trans ?_
  show (Finset.univ : Finset (Fin 81)).fold max negInf (fun j' => lg (reduces_S64x81_S64.lift (ix1 r) j')) = _
  unfold rowMax
  exact congrArg (fun f => (Finset.univ : Finset (Fin 81)).fold max negInf f) (funext fun (j' : Fin 81) => congrArg lg (lift2_axis1 _ r j'))

/-- A block's row sums, kept as a column and spread back over the 81 positions, read the sum of the row. -/
theorem rowSum_apply (e : FVec Ideal S64x81 .f32) (r : Fin 64) (j : Fin 81) :
    broadcastTo S64x81 (shapeCast S64x1 (multiReduction .add [1] S64 e 0x00000000#32 reduces_S64x81_S64 (.inl rfl) rfl)
      shapeCasts_S64_S64x1) broadcasts_S64x1_S64x81 (ix2 r j) = ∑ j' : Fin 81, e (ix2 r j') := by
  refine (broadcastTo_a1_ab_apply _ _ r j).trans ?_
  refine (shapeCast_a_a1_apply _ _ r (0 : Fin 1)).trans ?_
  refine (Ideal.multiReduction_add_single e _ reduces_S64x81_S64 _ _ (ix1 r)).trans ?_
  show ∑ j' : Fin 81, e (reduces_S64x81_S64.lift (ix1 r) j') = _
  exact Finset.sum_congr rfl fun j' _ => by rw [lift2_axis1]

/-- A row's weights are the softmax weights of the row's scores. -/
theorem weights_apply (lg : FVec Ideal S64x81 .f32) (r : Fin 64) (j : Fin 81) :
    weights lg (ix2 r j) = weight (fun j' => lg (ix2 r j')) j := by
  -- the exponentials of the block, each row shifted by its maximum
  have he : ∀ j' : Fin 81, exp (subf lg (broadcastTo S64x81 (shapeCast S64x1
        (multiReduction .maximumf [1] S64 lg 0xFF800000#32 reduces_S64x81_S64 (.inl rfl) rfl) shapeCasts_S64_S64x1)
        broadcasts_S64x1_S64x81)) (ix2 r j') = Ideal.exp (lg (ix2 r j') - rowMax (fun j'' => lg (ix2 r j''))) := fun j' => by
    show Ideal.exp (lg (ix2 r j') - _) = _
    rw [rowMax_apply]
  unfold weights weight
  show Ideal.div (exp (subf lg _) (ix2 r j)) (broadcastTo S64x81 (shapeCast S64x1
      (multiReduction .add [1] S64 (exp (subf lg _)) 0x00000000#32 reduces_S64x81_S64 (.inl rfl) rfl) shapeCasts_S64_S64x1)
      broadcasts_S64x1_S64x81 (ix2 r j)) = _
  rw [rowSum_apply, he j]
  exact congrArg _ (Finset.sum_congr rfl fun j' _ => he j')

/-- A head's output at (r, d) is the weighted sum over the 81 positions of lane `o + d` of the values. -/
theorem mix_apply (w : FVec Ideal S64x81 .f32) (v : FVec Ideal S64x81x128 .f32) (o : Nat) (ho : o + 32 ≤ 128)
    (hs : S64x81x128.Slices ![0, 0, o] S64x81x32) (r : Fin 64) (d : Fin 32) :
    mix w v ![0, 0, o] hs (ix2 r d) = ∑ j : Fin 81, w (ix2 r j) * v (ix3 r j (⟨o + d.val, by have := d.isLt; omega⟩ : Fin 128)) := by
  unfold mix
  refine (Ideal.multiReduction_add_single _ _ reduces_S64x81x32_S64x32 _ _ (ix2 r d)).trans ?_
  show ∑ j : Fin 81, mulf (broadcastTo S64x81x32 (shapeCast S64x81x1 w shapeCasts_S64x81_S64x81x1) broadcasts_S64x81x1_S64x81x32)
      (extractStridedSlice S64x81x32 ![0, 0, o] v hs) (reduces_S64x81x32_S64x32.lift (ix2 r d) j) = _
  refine Finset.sum_congr rfl fun j _ => ?_
  rw [lift3_axis1]
  show broadcastTo S64x81x32 (shapeCast S64x81x1 w shapeCasts_S64x81_S64x81x1) broadcasts_S64x81x1_S64x81x32 (ix3 r j d)
      * extractStridedSlice S64x81x32 ![0, 0, o] v hs (ix3 r j d) = _
  rw [broadcastTo_ab1_abc_apply, shapeCast_ab_ab1_apply]
  exact congrArg (w (ix2 r j) * ·) (slice3_axis2_apply o v hs r j d _ rfl)

end Cert.KernelIdeal.Head

end
-- ==== Proof.KernelBlock.lean ====
/-
  What the kernel body leaves in a 64-row output block, entry by entry.

  The stored vector is the concatenation along the lanes of the four heads' outputs, so lane `c` of row `r` is position
  `c mod 32` of head `c / 32`: the attention of Spec over row `r` of the five input blocks, with the fused scores.
-/
import proofs.«103271_j88862873354524_2_alg».proof.Proof.Gen.KernelIdeal.Frame
import proofs.«103271_j88862873354524_2_alg».proof.Proof.HeadSoftmax

noncomputable section

namespace Cert.KernelIdeal.Block

open Cert.KernelIdeal Cert.KernelIdeal.Gen Cert.KernelIdeal.Head Idealize.ShloMosaic Idealize.ShloMosaic.ValueIdx Cert.RelAttn

/-- The block's zero offsets, as the constant function. -/
theorem zero2 : (![0, 0] : Fin 2 → Nat) = fun _ => 0 := funext fun a => by fin_cases a <;> rfl
theorem zero3 : (![0, 0, 0] : Fin 3 → Nat) = fun _ => 0 := funext fun a => by fin_cases a <;> rfl

/-- One head's 32 output lanes of a block, from the five input blocks: the scores of the head's lanes of the score
    terms, their softmax weights row by row, and the head's lanes of the values weighted and summed. -/
def headOut (x0 : Vec Ideal S64x128 .f32) (x1 x2 x3 x4 : Vec Ideal S64x81x128 .f32) (off : Fin 3 → Nat)
    (hs : S64x81x128.Slices off S64x81x32) : FVec Ideal S64x32 .f32 :=
  Head.mix (Head.weights (Head.scores (k0_pay2 (F := Ideal) x0 x1 x3 x4) off hs)) x2 off hs

/-- The stored block is the four heads' outputs side by side along the lanes: the body's whole-block loads read the
    input blocks themselves, its one whole-block store leaves its vector, and that vector is spelt head by head. -/
theorem out0_5_heads (x0 : Vec Ideal S64x128 .f32) (x1 x2 x3 x4 : Vec Ideal S64x81x128 .f32) :
    out0_5 (F := Ideal) x0 x1 x2 x3 x4
      = concatenate S64x128 1 [⟨S64x32, headOut x0 x1 x2 x3 x4 ![0, 0, 0] slices_S64x81x128_o0_0_0_S64x81x32⟩,
          ⟨S64x32, headOut x0 x1 x2 x3 x4 ![0, 0, 32] slices_S64x81x128_o0_0_32_S64x81x32⟩,
          ⟨S64x32, headOut x0 x1 x2 x3 x4 ![0, 0, 64] slices_S64x81x128_o0_0_64_S64x81x32⟩,
          ⟨S64x32, headOut x0 x1 x2 x3 x4 ![0, 0, 96] slices_S64x81x128_o0_0_96_S64x81x32⟩]
          concatenates_S64x32_S64x32_S64x32_S64x32_S64x128_d1 := by
  unfold out0_5
  rw [View.canon_unit_zero zero2]
  simp only [View.ld_unit_zero (S := S64x128) zero2, View.ld_unit_zero (S := S64x81x128) zero3]
  rfl

/-- Position `d` of head `h` at row `r`: Spec's attention over the row's 81 positions, with the fused scores of
    head `h`, of lane `32h + d` of the values. The lane offset `o` is `32h`; lane `o + d'` is `lane h d'`, both in
    the weighted sum of the values and in each score's sum over the head's lanes. -/
theorem headOut_apply (x0 : Vec Ideal S64x128 .f32) (x1 x2 x3 x4 : Vec Ideal S64x81x128 .f32) (h : Fin 4) (o : Nat)
    (ho : o = 32 * h.val) (hs : S64x81x128.Slices ![0, 0, o] S64x81x32) (r : Fin 64) (d : Fin 32) :
    headOut x0 x1 x2 x3 x4 ![0, 0, o] hs (ix2 r d)
      = attend (fusedScore (fun c' => x0 (ix2 r c')) (fun j c' => x1 (ix3 r j c')) (fun j c' => x4 (ix3 r j c'))
          (fun j c' => x3 (ix3 r j c')) h) (fun j => x2 (ix3 r j (lane h d))) := by
  have hb : o + 32 ≤ 128 := by have := h.isLt; omega
  have hl : ∀ d' : Fin 32, (⟨o + d'.val, by have := d'.isLt; omega⟩ : Fin 128) = lane h d' := fun d' =>
    Fin.ext (by show o + d'.val = 32 * h.val + d'.val; omega)
  unfold headOut attend
  rw [Head.mix_apply _ _ o hb hs r d]
  refine Finset.sum_congr rfl fun j _ => ?_
  rw [Head.weights_apply, hl d]
  congr 2
  funext j'
  rw [Head.scores_apply _ o hb hs r j']
  unfold fusedScore
  refine Finset.sum_congr rfl fun d' _ => ?_
  rw [Head.scoreTerm_apply, hl d']

/-- The four heads' outputs of a block, by head: head `h` cuts lanes `32h .. 32h + 31`. -/
def heads (x0 : Vec Ideal S64x128 .f32) (x1 x2 x3 x4 : Vec Ideal S64x81x128 .f32) : Fin 4 → FVec Ideal S64x32 .f32
  | ⟨0, _⟩ => headOut x0 x1 x2 x3 x4 ![0, 0, 0] slices_S64x81x128_o0_0_0_S64x81x32
  | ⟨1, _⟩ => headOut x0 x1 x2 x3 x4 ![0, 0, 32] slices_S64x81x128_o0_0_32_S64x81x32
  | ⟨2, _⟩ => headOut x0 x1 x2 x3 x4 ![0, 0, 64] slices_S64x81x128_o0_0_64_S64x81x32
  | ⟨3, _⟩ => headOut x0 x1 x2 x3 x4 ![0, 0, 96] slices_S64x81x128_o0_0_96_S64x81x32

/-- Each of the four at (r, d) is Spec's attention with its own head's scores. -/
theorem heads_apply (x0 : Vec Ideal S64x128 .f32) (x1 x2 x3 x4 : Vec Ideal S64x81x128 .f32) (h : Fin 4) (r : Fin 64) (d : Fin 32) :
    heads x0 x1 x2 x3 x4 h (ix2 r d)
      = attend (fusedScore (fun c' => x0 (ix2 r c')) (fun j c' => x1 (ix3 r j c')) (fun j c' => x4 (ix3 r j c'))
          (fun j c' => x3 (ix3 r j c')) h) (fun j => x2 (ix3 r j (lane h d))) :=
  match h with
  | ⟨0, _⟩ => headOut_apply x0 x1 x2 x3 x4 ⟨0, _⟩ 0 rfl _ r d
  | ⟨1, _⟩ => headOut_apply x0 x1 x2 x3 x4 ⟨1, _⟩ 32 rfl _ r d
  | ⟨2, _⟩ => headOut_apply x0 x1 x2 x3 x4 ⟨2, _⟩ 64 rfl _ r d
  | ⟨3, _⟩ => headOut_apply x0 x1 x2 x3 x4 ⟨3, _⟩ 96 rfl _ r d

/-- Four pieces of 32 lanes laid side by side, read at lane `32h + d` of row `r`: piece `h` at `(r, d)`, since
    `(32h + d) / 32 = h` and `(32h + d) mod 32 = d`. -/
theorem lanes_apply (f : Fin 4 → FVec Ideal S64x32 .f32)
    (hc : Shape.Concatenates [S64x32, S64x32, S64x32, S64x32] S64x128 1) (r : Fin 64) (h : Fin 4) (d : Fin 32) :
    concatenate S64x128 1 [⟨S64x32, f 0⟩, ⟨S64x32, f 1⟩, ⟨S64x32, f 2⟩, ⟨S64x32, f 3⟩] hc (ix2 r (lane h d)) = f h (ix2 r d) := by
  refine concatenate_ofFn_apply (t := S64x128) (s₁ := S64x32) 1 f hc rfl 32 rfl (ix2 r (lane h d)) h ?_ (ix2 r d) ?_ ?_
  · show (32 * h.val + d.val) / 32 = h.val
    have := d.isLt; omega
  · show d.val = (32 * h.val + d.val) % 32
    have := d.isLt; omega
  · intro b hb
    match b with
    | ⟨0, _⟩ => rfl
    | ⟨1, _⟩ => exact absurd rfl hb

/-- Entry (r, c) of the output block from the five input blocks (query, keys, values, relative queries, relative keys). -/
theorem out0_5_apply (x0 : Vec Ideal S64x128 .f32) (x1 x2 x3 x4 : Vec Ideal S64x81x128 .f32) (r : Fin 64) (c : Fin 128) :
    out0_5 (F := Ideal) x0 x1 x2 x3 x4 (ix2 r c)
      = attend (fusedScore (fun c' => x0 (ix2 r c')) (fun j c' => x1 (ix3 r j c')) (fun j c' => x4 (ix3 r j c'))
          (fun j c' => x3 (ix3 r j c')) (headOf c)) (fun j => x2 (ix3 r j c)) := by
  obtain ⟨h, d, rfl⟩ : ∃ (h : Fin 4) (d : Fin 32), c = lane h d := ⟨headOf c, posOf c, (lane_headOf_posOf c).symm⟩
  have hh : headOf (lane h d) = h := Fin.ext (by show (32 * h.val + d.val) / 32 = h.val; have := d.isLt; omega)
  rw [hh, out0_5_heads]
  exact (lanes_apply (heads x0 x1 x2 x3 x4) _ r h d).trans (heads_apply x0 x1 x2 x3 x4 h r d)

end Cert.KernelIdeal.Block

end
-- ==== Proof.KernelArray.lean ====
/-
  The kernel program's result array after the run.

  Grid point `t` of 128 handles batch rows 64t .. 64t+63: it reads those rows of the five arrays and writes those rows of
  the [8192, 128] result, so the blocks tile the result and each entry (b, c) is the attention of batch row `b`. The
  program then only reshapes [8192, 128] to [8192, 1, 128] (and had reshaped the query the other way before the region).
-/
import proofs.«103271_j88862873354524_2_alg».proof.Proof.Gen.KernelIdeal.Frame
import proofs.«103271_j88862873354524_2_alg».proof.Proof.KernelBlock
import Idealize.ShloMosaic.Lib.Pipeline.Value

noncomputable section

namespace Cert.KernelIdeal.Whole

open Cert.KernelIdeal Cert.KernelIdeal.Gen Idealize.ShloMosaic Idealize.ShloMosaic.TcCoe Idealize.SL.Sem Idealize.ShloMosaic.ValueIdx Cert.RelAttn
open Idealize.ShloMosaic.Pipeline (Dat)

variable (m : (ℓ : Loc nD τ sig) → Buf (Elt Ideal) ℓ) (ρ : Dev nD → PrngReg)

/-! ## The region's result as one function of the arrays it finds -/

/-- Entry (b, c) of the [8192, 128] result from the five arrays as the region finds them: batch row `b` attends over its
    81 positions with the fused scores of lane `c`'s head, and sums lane `c` of the values. -/
def rowAttn (Q : S8192x128.Idx → EReal) (K Vv Qr Kr : S8192x81x128.Idx → EReal) : S8192x128.Idx → EReal := fun i =>
  let b : Fin 8192 := i 0
  let c : Fin 128 := i 1
  attend (fusedScore (fun c' => Q (ix2 b c')) (fun j c' => K (ix3 b j c')) (fun j c' => Kr (ix3 b j c'))
    (fun j c' => Qr (ix3 b j c')) (headOf c)) (fun j => Vv (ix3 b j c))

/-- The same over the region-entry contents. -/
def regionOut (c : Dev nD) : S8192x128.Idx → EReal :=
  rowAttn (V m c main_v0) (V m c main_arg1) (V m c main_arg2) (V m c main_arg3) (V m c main_arg4)

/-! ## The index maps over the grid -/

/-- Every window's block index at point `t` is `t` on the batch axis and zero on the others. -/
theorem index_at : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 2) = t.val ∧ win0_5.index t (1 : Fin 2) = 0 :=
  (by decide +kernel : ∀ t : Fin grid0.N, _)

/-! ## Each input block is 64 batch rows of its array -/

/-- The query block at point `t`: rows 64t .. 64t+63 of the reshaped query. -/
theorem queryBlock_apply (c : Dev nD) (t : Fin cfg0.N) (x : S64x128.Idx) (k : S8192x128.Idx)
    (hk0 : (k 0).val = 64 * t.val + (x 0).val) (hk1 : (k 1).val = (x 1).val) :
    (iblk m c 0 t : Vec Ideal S64x128 .f32) x = (V m c main_v0 : S8192x128.Idx → EReal) k := by
  obtain ⟨e0, e1, -⟩ := index_at t
  unfold iblk
  rw [View.read_apply]
  show V m c main_v0 _ = V m c main_v0 _
  refine congrArg (V m c main_v0) ?_
  funext a
  apply Fin.ext
  match a with
  | ⟨0, _⟩ => show win0_0.index t (0 : Fin 2) * 64 + 1 * (x 0).val = (k 0).val; rw [e0, hk0]; omega
  | ⟨1, _⟩ => show win0_0.index t (1 : Fin 2) * 128 + 1 * (x 1).val = (k 1).val; rw [e1, hk1]; omega

/-- The key block at point `t`: batch rows 64t .. 64t+63 of `main_arg1`. -/
theorem block1_apply (c : Dev nD) (t : Fin cfg0.N) (x : S64x81x128.Idx) (k : S8192x81x128.Idx)
    (hk0 : (k 0).val = 64 * t.val + (x 0).val) (hk1 : (k 1).val = (x 1).val) (hk2 : (k 2).val = (x 2).val) :
    (iblk m c 1 t : Vec Ideal S64x81x128 .f32) x = (V m c main_arg1 : S8192x81x128.Idx → EReal) k := by
  obtain ⟨-, -, e0, e1, e2, -⟩ := index_at t
  unfold iblk
  rw [View.read_apply]
  show V m c main_arg1 _ = V m c main_arg1 _
  refine congrArg (V m c main_arg1) ?_
  funext a
  apply Fin.ext
  match a with
  | ⟨0, _⟩ => show win0_1.index t (0 : Fin 3) * 64 + 1 * (x 0).val = (k 0).val; rw [e0, hk0]; omega
  | ⟨1, _⟩ => show win0_1.index t (1 : Fin 3) * 81 + 1 * (x 1).val = (k 1).val; rw [e1, hk1]; omega
  | ⟨2, _⟩ => show win0_1.index t (2 : Fin 3) * 128 + 1 * (x 2).val = (k 2).val; rw [e2, hk2]; omega

/-- The value block at point `t`: batch rows 64t .. 64t+63 of `main_arg2`. -/
theorem block2_apply (c : Dev nD) (t : Fin cfg0.N) (x : S64x81x128.Idx) (k : S8192x81x128.Idx)
    (hk0 : (k 0).val = 64 * t.val + (x 0).val) (hk1 : (k 1).val = (x 1).val) (hk2 : (k 2).val = (x 2).val) :
    (iblk m c 2 t : Vec Ideal S64x81x128 .f32) x = (V m c main_arg2 : S8192x81x128.Idx → EReal) k := by
  obtain ⟨-, -, -, -, -, e0, e1, e2, -⟩ := index_at t
  unfold iblk
  rw [View.read_apply]
  show V m c main_arg2 _ = V m c main_arg2 _
  refine congrArg (V m c main_arg2) ?_
  funext a
  apply Fin.ext
  match a with
  | ⟨0, _⟩ => show win0_2.index t (0 : Fin 3) * 64 + 1 * (x 0).val = (k 0).val; rw [e0, hk0]; omega
  | ⟨1, _⟩ => show win0_2.index t (1 : Fin 3) * 81 + 1 * (x 1).val = (k 1).val; rw [e1, hk1]; omega
  | ⟨2, _⟩ => show win0_2.index t (2 : Fin 3) * 128 + 1 * (x 2).val = (k 2).val; rw [e2, hk2]; omega

/-- The relative-query block at point `t`: batch rows 64t .. 64t+63 of `main_arg3`. -/
theorem block3_apply (c : Dev nD) (t : Fin cfg0.N) (x : S64x81x128.Idx) (k : S8192x81x128.Idx)
    (hk0 : (k 0).val = 64 * t.val + (x 0).val) (hk1 : (k 1).val = (x 1).val) (hk2 : (k 2).val = (x 2).val) :
    (iblk m c 3 t : Vec Ideal S64x81x128 .f32) x = (V m c main_arg3 : S8192x81x128.Idx → EReal) k := by
  obtain ⟨-, -, -, -, -, -, -, -, e0, e1, e2, -⟩ := index_at t
  unfold iblk
  rw [View.read_apply]
  show V m c main_arg3 _ = V m c main_arg3 _
  refine congrArg (V m c main_arg3) ?_
  funext a
  apply Fin.ext
  match a with
  | ⟨0, _⟩ => show win0_3.index t (0 : Fin 3) * 64 + 1 * (x 0).val = (k 0).val; rw [e0, hk0]; omega
  | ⟨1, _⟩ => show win0_3.index t (1 : Fin 3) * 81 + 1 * (x 1).val = (k 1).val; rw [e1, hk1]; omega
  | ⟨2, _⟩ => show win0_3.index t (2 : Fin 3) * 128 + 1 * (x 2).val = (k 2).val; rw [e2, hk2]; omega

/-- The relative-key block at point `t`: batch rows 64t .. 64t+63 of `main_arg4`. -/
theorem block4_apply (c : Dev nD) (t : Fin cfg0.N) (x : S64x81x128.Idx) (k : S8192x81x128.Idx)
    (hk0 : (k 0).val = 64 * t.val + (x 0).val) (hk1 : (k 1).val = (x 1).val) (hk2 : (k 2).val = (x 2).val) :
    (iblk m c 4 t : Vec Ideal S64x81x128 .f32) x = (V m c main_arg4 : S8192x81x128.Idx → EReal) k := by
  obtain ⟨-, -, -, -, -, -, -, -, -, -, -, e0, e1, e2, -⟩ := index_at t
  unfold iblk
  rw [View.read_apply]
  show V m c main_arg4 _ = V m c main_arg4 _
  refine congrArg (V m c main_arg4) ?_
  funext a
  apply Fin.ext
  match a with
  | ⟨0, _⟩ => show win0_4.index t (0 : Fin 3) * 64 + 1 * (x 0).val = (k 0).val; rw [e0, hk0]; omega
  | ⟨1, _⟩ => show win0_4.index t (1 : Fin 3) * 81 + 1 * (x 1).val = (k 1).val; rw [e1, hk1]; omega
  | ⟨2, _⟩ => show win0_4.index t (2 : Fin 3) * 128 + 1 * (x 2).val = (k 2).val; rw [e2, hk2]; omega

/-! ## What a point writes back -/

/-- Row `64t + r` of the result, as an index. -/
abbrev rowOf (t : Fin cfg0.N) (r : Fin 64) : Fin 8192 :=
  ⟨64 * t.val + r.val, by have ht := t.isLt; have hr := r.isLt; have hN : cfg0.N = 128 := N_0; omega⟩

/-- Entry (r, q) of what the body leaves at point `t` is entry (64t + r, q) of the region's result. -/
theorem body_entry (c : Dev nD) (t : Fin cfg0.N) (r : Fin 64) (q : Fin 128) :
    out0_5 (F := Ideal) (iblk m c 0 t) (iblk m c 1 t) (iblk m c 2 t) (iblk m c 3 t) (iblk m c 4 t) (ix2 r q)
      = regionOut m c (ix2 (rowOf t r) q) := by
  refine (Block.out0_5_apply (iblk m c 0 t) (iblk m c 1 t) (iblk m c 2 t) (iblk m c 3 t) (iblk m c 4 t) r q).trans ?_
  have h0 : (fun c' : Fin 128 => (iblk m c 0 t : Vec Ideal S64x128 .f32) (ix2 r c'))
      = fun c' => (V m c main_v0 : S8192x128.Idx → EReal) (ix2 (rowOf t r) c') :=
    funext fun c' => queryBlock_apply m c t (ix2 r c') (ix2 (rowOf t r) c') rfl rfl
  have h1 : (fun (j : Fin 81) (c' : Fin 128) => (iblk m c 1 t : Vec Ideal S64x81x128 .f32) (ix3 r j c'))
      = fun j c' => (V m c main_arg1 : S8192x81x128.Idx → EReal) (ix3 (rowOf t r) j c') :=
    funext fun j => funext fun c' => block1_apply m c t (ix3 r j c') (ix3 (rowOf t r) j c') rfl rfl rfl
  have h2 : (fun (j : Fin 81) => (iblk m c 2 t : Vec Ideal S64x81x128 .f32) (ix3 r j q))
      = fun j => (V m c main_arg2 : S8192x81x128.Idx → EReal) (ix3 (rowOf t r) j q) :=
    funext fun j => block2_apply m c t (ix3 r j q) (ix3 (rowOf t r) j q) rfl rfl rfl
  have h3 : (fun (j : Fin 81) (c' : Fin 128) => (iblk m c 3 t : Vec Ideal S64x81x128 .f32) (ix3 r j c'))
      = fun j c' => (V m c main_arg3 : S8192x81x128.Idx → EReal) (ix3 (rowOf t r) j c') :=
    funext fun j => funext fun c' => block3_apply m c t (ix3 r j c') (ix3 (rowOf t r) j c') rfl rfl rfl
  have h4 : (fun (j : Fin 81) (c' : Fin 128) => (iblk m c 4 t : Vec Ideal S64x81x128 .f32) (ix3 r j c'))
      = fun j c' => (V m c main_arg4 : S8192x81x128.Idx → EReal) (ix3 (rowOf t r) j c') :=
    funext fun j => funext fun c' => block4_apply m c t (ix3 r j c') (ix3 (rowOf t r) j c') rfl rfl rfl
  rw [h0, h1, h2, h3, h4]
  rfl

/-- What point `t` writes back is block `t` of the region's result. -/
theorem flushed_eq (c : Dev nD) (t : Fin cfg0.N) :
    (dats m 0 c).flushed 5 t = ((cfg0.win 5).blk t).view.read (Elt Ideal) (regionOut m c) := by
  show (cfg0.win 5).cut (grid0.coords t) ((dats m 0 c).after 5 t) = _
  rw [after0_5]
  obtain ⟨-, -, -, -, -, -, -, -, -, -, -, -, -, -, e0, e1⟩ := index_at t
  funext y
  rw [View.read_apply]
  have hy0 : (y 0).val < 64 := (y 0).isLt
  have hy1 : (y 1).val < 128 := (y 1).isLt
  have hl : (cfg0.win 5).xinj (grid0.coords t) y = ix2 (⟨(y 0).val, hy0⟩ : Fin 64) (⟨(y 1).val, hy1⟩ : Fin 128) := by
    funext a; match a with | ⟨0, _⟩ => rfl | ⟨1, _⟩ => rfl
  have hr : ((cfg0.win 5).blk t).view.emb y = ix2 (rowOf t ⟨(y 0).val, hy0⟩) (⟨(y 1).val, hy1⟩ : Fin 128) := by
    funext a
    apply Fin.ext
    match a with
    | ⟨0, _⟩ => show win0_5.index t (0 : Fin 2) * 64 + 1 * (y 0).val = 64 * t.val + (y 0).val; rw [e0]; omega
    | ⟨1, _⟩ => show win0_5.index t (1 : Fin 2) * 128 + 1 * (y 1).val = (y 1).val; rw [e1]; omega
  show out0_5 (F := Ideal) (iblk m c 0 t) (iblk m c 1 t) (iblk m c 2 t) (iblk m c 3 t) (iblk m c 4 t) ((cfg0.win 5).xinj (grid0.coords t) y) = regionOut m c (((cfg0.win 5).blk t).view.emb y)
  rw [hl, hr]
  exact body_entry m c t _ _

/-! ## The blocks tile the result -/

/-- An index of the result is in point `t`'s block iff each coordinate is in the block's range on its axis. -/
theorem mem_block (t : Fin cfg0.N) (i : S8192x128.Idx) :
    i ∈ ((cfg0.win 5).blk t).view.set ↔ ∀ a : Fin 2, win0_5.index t a * S64x128.size a ≤ (i a).val ∧ (i a).val < win0_5.index t a * S64x128.size a + S64x128.size a := by
  show i ∈ ((View.whole main_v1).slice (win0_5.rect t)).set ↔ _
  rw [View.set_slice_whole, Rect.mem_set_unit]
  exact Iff.rfl

/-- Row `b` of the result is written back by point `b / 64`. -/
theorem covered (i : S8192x128.Idx) : ∃ t : Fin cfg0.N, (cfg0.win 5).flush t = true ∧ i ∈ ((cfg0.win 5).blk t).view.set := by
  have hi0 : (i 0).val < 8192 := (i 0).isLt
  have hi1 : (i 1).val < 128 := (i 1).isLt
  have hN : cfg0.N = 128 := N_0
  refine ⟨⟨(i 0).val / 64, by omega⟩, flush0_5 _, ?_⟩
  rw [mem_block]
  obtain ⟨-, -, -, -, -, -, -, -, -, -, -, -, -, -, e0, e1⟩ := index_at ⟨(i 0).val / 64, by omega⟩
  intro a
  match a with
  | ⟨0, _⟩ => show win0_5.index _ (0 : Fin 2) * 64 ≤ (i 0).val ∧ (i 0).val < win0_5.index _ (0 : Fin 2) * 64 + 64; rw [e0]; show (i 0).val / 64 * 64 ≤ (i 0).val ∧ (i 0).val < (i 0).val / 64 * 64 + 64; omega
  | ⟨1, _⟩ => show win0_5.index _ (1 : Fin 2) * 128 ≤ (i 1).val ∧ (i 1).val < win0_5.index _ (1 : Fin 2) * 128 + 128; rw [e1]; omega

/-- The result array after the last point is the region's result. -/
theorem final (c : Dev nD) : (dats m 0 c).arrAt 5 cfg0.N = regionOut m c :=
  (dats m 0 c).arrAt_eq_of_cover 5 (regionOut m c) (fun t _ => flushed_eq m c t) covered

/-! ## The two reshapes around the region -/

/-- The query as the region finds it is the launched query with its unit axis dropped. -/
theorem query_eq (c : Dev nD) : (V m c main_v0 : S8192x128.Idx → EReal)
    = shapeCast S8192x128 (m ((c.tc : Thread nD τ).loc main_arg0)) shapeCasts_S8192x1x128_S8192x128 := by
  show StableHlo.after hostOps0 (fun b => m (c, b)) (Proc.devRef .tc main_v0) = _
  after_results
  rfl

/-- The program's result is the region's result with the unit axis put back. -/
theorem tail_eq (c : Dev nD) : (Pipeline.afterTail₀ cfgs (dats m) 0 (V0 m) [hostOps1] c main_v2 : S8192x1x128.Idx → EReal)
    = shapeCast S8192x1x128 (regionOut m c) shapeCasts_S8192x128_S8192x1x128 := by
  unfold Pipeline.afterTail₀
  show StableHlo.after hostOps1 _ (Proc.devRef .tc main_v2) = _
  after_results
  rw [(Pipeline.withArrays_arr spec0 launch0.win.arr_inj c _ _ 5).trans (final m c)]
  rfl

/-! ## The program's result -/

/-- Read at (b, 0, c), the reshaped region result is the fused-score attention of the launched arrays. -/
theorem result_eq (c : Dev nD) : (Pipeline.afterTail₀ cfgs (dats m) 0 (V0 m) [hostOps1] c main_v2 : S8192x1x128.Idx → EReal)
    = outFused (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  rw [tail_eq]
  funext i
  obtain ⟨b, z, q, rfl⟩ : ∃ (b : Fin 8192) (z : Fin 1) (q : Fin 128), i = ix3 b z q := ⟨i 0, i 1, i 2, eq_ix3 i⟩
  obtain rfl : z = 0 := Subsingleton.elim _ _
  rw [shapeCast_apply (regionOut m c) shapeCasts_S8192x128_S8192x1x128 (ix3 b (0 : Fin 1) q) (ix2 b q)
    (by rw [Shape.rowMajor_val_two, Shape.rowMajor_val_three]; show b.val * 128 + q.val = (b.val * 1 + 0) * 128 + q.val; omega)]
  have hq : (fun c' : Fin 128 => (V m c main_v0 : S8192x128.Idx → EReal) (ix2 b c'))
      = fun c' => (m ((c.tc : Thread nD τ).loc main_arg0) : S8192x1x128.Idx → EReal) (ix3 b (0 : Fin 1) c') :=
    funext fun c' => by
      rw [query_eq]
      exact shapeCast_apply _ shapeCasts_S8192x1x128_S8192x128 (ix2 b c') (ix3 b (0 : Fin 1) c')
        (by rw [Shape.rowMajor_val_two, Shape.rowMajor_val_three]; show (b.val * 1 + 0) * 128 + c'.val = b.val * 128 + c'.val; omega)
  unfold regionOut rowAttn outFused outWith qRow kvRow
  dsimp only
  rw [V_main_arg1, V_main_arg2, V_main_arg3, V_main_arg4]
  show attend (fusedScore (fun c' : Fin 128 => (V m c main_v0 : S8192x128.Idx → EReal) (ix2 b c')) _ _ _ _) _ = _
  rw [hq]

/-- Every weakly fair execution of the kernel program ends with its result at the fused-score attention of the
    argument arrays, and the arguments unchanged. -/
theorem run : θ_run defs (onTc (τ := τ) (main (F := Ideal))) ⟨m, fun _ => 0, ρ⟩ fun r => ∀ c : Dev nD,
      r.2.mem ((c.tc : Thread nD τ).loc main_v2) = outFused (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  exact (θ_run defs _ _).mono (fun r h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.KernelIdeal.Whole

end
-- ==== Proof.RefValue.lean ====
/-
  The reference program's result, read index by index.

  The reference splits the 128 lanes into (head, position) by a reshape and a transpose, takes the three score sums as
  two batched products and one lane sum, scales each, adds them, and applies softmax over the 81 positions and a
  batched product with the values; the final transpose and reshape put (head, position) back into lane 32·head+position.
  Entry (b, 0, c) is therefore the attention of Spec over batch row `b` with the split scores.
-/
import proofs.«103271_j88862873354524_2_alg».proof.Proof.Gen.ReferenceIdeal.Run
import proofs.«103271_j88862873354524_2_alg».proof.Proof.Gen.ReferenceIdeal.Read
import proofs.«103271_j88862873354524_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.RelAttn

/-! ## The five arguments after the reshape and the transpose

A [·, n, 128] array reshaped to [·, n, 4, 32] and transposed to [·, 4, n, 32] holds at (b, h, j, d) the entry
(b, j, 32h + d) of the array: the flat position ((b·n + j)·4 + h)·32 + d is (b·n + j)·128 + (32h + d). -/

/-- The query: entry (b, h, 0, d) of the transposed array is lane 32h+d of batch row b. -/
theorem q_at (x0 : (⟨S8192x1x128, .f32⟩ : BufTy).Contents (Elt Ideal)) (b : Fin 8192) (h : Fin 4) (z : Fin 1) (d : Fin 32) :
    val_main_v1 (F := Ideal) x0 (ix4 b h z d) = x0 (ix3 b (0 : Fin 1) (lane h d)) := by
  rw [val_main_v1_apply, val_main_v0_apply]
  refine congrArg x0 (funext fun a => Fin.ext ?_)
  have hb := b.isLt; have hh := h.isLt; have hz := z.isLt; have hd := d.isLt
  match a with
  | ⟨0, _⟩ => show (((b.val * 1 + z.val) * 4 + h.val) * 32 + d.val) / 128 = b.val; omega
  | ⟨1, _⟩ => rfl
  | ⟨2, _⟩ => show (((b.val * 1 + z.val) * 4 + h.val) * 32 + d.val) % 128 = 32 * h.val + d.val; omega

/-- The keys: entry (b, h, j, d) of the transposed array is lane 32h+d of row j of batch row b. -/
theorem k_at (x1 : (⟨S8192x81x128, .f32⟩ : BufTy).Contents (Elt Ideal)) (b : Fin 8192) (h : Fin 4) (j : Fin 81) (d : Fin 32) :
    val_main_v3 (F := Ideal) x1 (ix4 b h j d) = x1 (ix3 b j (lane h d)) := by
  rw [val_main_v3_apply, val_main_v2_apply]
  refine congrArg x1 (funext fun a => Fin.ext ?_)
  have hb := b.isLt; have hh := h.isLt; have hj := j.isLt; have hd := d.isLt
  match a with
  | ⟨0, _⟩ => show (((b.val * 81 + j.val) * 4 + h.val) * 32 + d.val) / 10368 = b.val; omega
  | ⟨1, _⟩ => show (((b.val * 81 + j.val) * 4 + h.val) * 32 + d.val) / 128 % 81 = j.val; omega
  | ⟨2, _⟩ => show (((b.val * 81 + j.val) * 4 + h.val) * 32 + d.val) % 128 = 32 * h.val + d.val; omega

/-- The values, likewise. -/
theorem v_at (x2 : (⟨S8192x81x128, .f32⟩ : BufTy).Contents (Elt Ideal)) (b : Fin 8192) (h : Fin 4) (j : Fin 81) (d : Fin 32) :
    val_main_v5 (F := Ideal) x2 (ix4 b h j d) = x2 (ix3 b j (lane h d)) := by
  rw [val_main_v5_apply, val_main_v4_apply]
  refine congrArg x2 (funext fun a => Fin.ext ?_)
  have hb := b.isLt; have hh := h.isLt; have hj := j.isLt; have hd := d.isLt
  match a with
  | ⟨0, _⟩ => show (((b.val * 81 + j.val) * 4 + h.val) * 32 + d.val) / 10368 = b.val; omega
  | ⟨1, _⟩ => show (((b.val * 81 + j.val) * 4 + h.val) * 32 + d.val) / 128 % 81 = j.val; omega
  | ⟨2, _⟩ => show (((b.val * 81 + j.val) * 4 + h.val) * 32 + d.val) % 128 = 32 * h.val + d.val; omega

/-- The query-side relative rows, likewise. -/
theorem qr_at (x3 : (⟨S8192x81x128, .f32⟩ : BufTy).Contents (Elt Ideal)) (b : Fin 8192) (h : Fin 4) (j : Fin 81) (d : Fin 32) :
    val_main_v7 (F := Ideal) x3 (ix4 b h j d) = x3 (ix3 b j (lane h d)) := by
  rw [val_main_v7_apply, val_main_v6_apply]
  refine congrArg x3 (funext fun a => Fin.ext ?_)
  have hb := b.isLt; have hh := h.isLt; have hj := j.isLt; have hd := d.isLt
  match a with
  | ⟨0, _⟩ => show (((b.val * 81 + j.val) * 4 + h.val) * 32 + d.val) / 10368 = b.val; omega
  | ⟨1, _⟩ => show (((b.val * 81 + j.val) * 4 + h.val) * 32 + d.val) / 128 % 81 = j.val; omega
  | ⟨2, _⟩ => show (((b.val * 81 + j.val) * 4 + h.val) * 32 + d.val) % 128 = 32 * h.val + d.val; omega

/-- The key-side relative rows, likewise. -/
theorem kr_at (x4 : (⟨S8192x81x128, .f32⟩ : BufTy).Contents (Elt Ideal)) (b : Fin 8192) (h : Fin 4) (j : Fin 81) (d : Fin 32) :
    val_main_v9 (F := Ideal) x4 (ix4 b h j d) = x4 (ix3 b j (lane h d)) := by
  rw [val_main_v9_apply, val_main_v8_apply]
  refine congrArg x4 (funext fun a => Fin.ext ?_)
  have hb := b.isLt; have hh := h.isLt; have hj := j.isLt; have hd := d.isLt
  match a with
  | ⟨0, _⟩ => show (((b.val * 81 + j.val) * 4 + h.val) * 32 + d.val) / 10368 = b.val; omega
  | ⟨1, _⟩ => show (((b.val * 81 + j.val) * 4 + h.val) * 32 + d.val) / 128 % 81 = j.val; omega
  | ⟨2, _⟩ => show (((b.val * 81 + j.val) * 4 + h.val) * 32 + d.val) % 128 = 32 * h.val + d.val; omega

/-! ## The scores

The two batched products contract the 32 positions of a head: at (b, h, 0, j) the left operand is read at (b, h, 0, k)
and the right at (b, h, j, k). The third sum reads the elementwise product at (b, h, j, k) and is broadcast from
(b, h, j) to (b, h, 0, j). -/

theorem lidx_score (b : Fin 8192) (h : Fin 4) (z : Fin 1) (j : Fin 81) (k : Fin 32) :
    lidx_main_v10 (ix4 b h z j) k = ix4 b h z k :=
  funext fun a => Fin.ext (by match a with | ⟨0, _⟩ => rfl | ⟨1, _⟩ => rfl | ⟨2, _⟩ => rfl | ⟨3, _⟩ => rfl)

theorem ridx_score (b : Fin 8192) (h : Fin 4) (z : Fin 1) (j : Fin 81) (k : Fin 32) :
    ridx_main_v10 (ix4 b h z j) k = ix4 b h j k :=
  funext fun a => Fin.ext (by match a with | ⟨0, _⟩ => rfl | ⟨1, _⟩ => rfl | ⟨2, _⟩ => rfl | ⟨3, _⟩ => rfl)

theorem lidx_score' (b : Fin 8192) (h : Fin 4) (z : Fin 1) (j : Fin 81) (k : Fin 32) :
    lidx_main_v13 (ix4 b h z j) k = ix4 b h z k :=
  funext fun a => Fin.ext (by match a with | ⟨0, _⟩ => rfl | ⟨1, _⟩ => rfl | ⟨2, _⟩ => rfl | ⟨3, _⟩ => rfl)

theorem ridx_score' (b : Fin 8192) (h : Fin 4) (z : Fin 1) (j : Fin 81) (k : Fin 32) :
    ridx_main_v13 (ix4 b h z j) k = ix4 b h j k :=
  funext fun a => Fin.ext (by match a with | ⟨0, _⟩ => rfl | ⟨1, _⟩ => rfl | ⟨2, _⟩ => rfl | ⟨3, _⟩ => rfl)

theorem idx_lanesum (b : Fin 8192) (h : Fin 4) (z : Fin 1) (j : Fin 81) (k : Fin 32) :
    idx_main_v17 (idx_main_v20 (ix4 b h z j)) k = ix4 b h j k :=
  funext fun a => Fin.ext (by match a with | ⟨0, _⟩ => rfl | ⟨1, _⟩ => rfl | ⟨2, _⟩ => rfl | ⟨3, _⟩ => rfl)

/-- The summed logits at (b, h, 0, j) are the split score of position j under head h for batch row b. -/
theorem logit_at (x0 : (⟨S8192x1x128, .f32⟩ : BufTy).Contents (Elt Ideal)) (x1 x3 x4 : (⟨S8192x81x128, .f32⟩ : BufTy).Contents (Elt Ideal))
    (b : Fin 8192) (h : Fin 4) (z : Fin 1) (j : Fin 81) :
    val_main_v22 (F := Ideal) x0 x1 x3 x4 (ix4 b h z j)
      = splitScore (qRow x0 b) (kvRow x1 b) (kvRow x4 b) (kvRow x3 b) h j := by
  rw [val_main_v22_apply, val_main_v21_apply, val_main_v12_apply, val_main_v15_apply, val_main_v10_apply, val_main_v13_apply,
    val_main_v11_apply, val_main_v14_apply, val_main_cst_apply, val_main_cst_0_apply,
    val_main_v20_apply, val_main_v19_apply, val_main_v17_apply, val_main_v18_apply, val_main_cst_1_apply, val_main_cst_2_apply]
  simp only [lidx_score, ridx_score, lidx_score', ridx_score', idx_lanesum, val_main_v16_apply, q_at, k_at, qr_at, kr_at,
    Ideal.mulf_def, Ideal.addf_def, Ideal.ofBits_def, Ideal.ofBits_zero_f32, zero_add]
  obtain rfl : z = 0 := Subsingleton.elim _ _
  rfl

/-! ## The row maximum

The maximum over the 81 positions is a fold of `max` from −∞ over the last axis; the program then takes the maximum with
−∞ once more, which changes nothing. -/

theorem reduces_pos : S8192x4x1x81.Reduces [3] S8192x4x1 := by decide

/-- The index (b, h, 0) with position k put back on the last axis is (b, h, 0, k). -/
theorem lift_pos (b : Fin 8192) (h : Fin 4) (z : Fin 1) (k : Fin 81) :
    reduces_pos.lift (ix3 b h z) k = ix4 b h z k := by
  funext c; apply Fin.ext
  match c with
  | ⟨0, _⟩ => rfl
  | ⟨1, _⟩ => rfl
  | ⟨2, _⟩ => rfl
  | ⟨3, _⟩ => rfl

/-- A maximum-reduce of a [8192, 4, 1, 81] array from −∞ over its last axis, at (b, h, 0), is the row maximum of the 81
    entries (b, h, 0, ·). -/
theorem reduce_max_row (y : FVec Ideal S8192x4x1x81 .f32) (lg : Fin 81 → EReal) (b : Fin 8192) (h : Fin 4) (z : Fin 1)
    (hy : ∀ k : Fin 81, y (ix4 b h z k) = lg k) :
    Host.reduce FloatOps.maximumf y (val_main_cst_3 (F := Ideal)) reducesTo_S8192x4x1x81_S8192x4x1_d3 h_S_ (ix3 b h z) = rowMax lg := by
  rw [Host.reduce_eq_fold_single FloatOps.maximumf y _ reducesTo_S8192x4x1x81_S8192x4x1_d3 reduces_pos h_S_, val_main_cst_3_apply]
  unfold rowMax
  show (Finset.univ : Finset (Fin 81)).fold max negInf (fun k => y (reduces_pos.lift (ix3 b h z) k)) = _
  exact congrArg (fun f => Finset.fold max negInf f (Finset.univ : Finset (Fin 81)))
    (funext fun k => by rw [lift_pos b h z k]; exact hy k)

/-- The reduced maximum at (b, h, 0) is the row maximum of the 81 split scores. -/
theorem reduce_max_at (x0 : (⟨S8192x1x128, .f32⟩ : BufTy).Contents (Elt Ideal)) (x1 x3 x4 : (⟨S8192x81x128, .f32⟩ : BufTy).Contents (Elt Ideal))
    (b : Fin 8192) (h : Fin 4) (z : Fin 1) :
    val_main_v23 (F := Ideal) x0 x1 x3 x4 (ix3 b h z) = rowMax (splitScore (qRow x0 b) (kvRow x1 b) (kvRow x4 b) (kvRow x3 b) h) := by
  unfold val_main_v23
  have hy : ∀ k : Fin 81, val_main_v22 (F := Ideal) x0 x1 x3 x4 (ix4 b h z k) = (splitScore (qRow x0 b) (kvRow x1 b) (kvRow x4 b) (kvRow x3 b) h) k :=
    fun k => logit_at x0 x1 x3 x4 b h z k
  generalize val_main_v22 (F := Ideal) x0 x1 x3 x4 = y at hy ⊢
  exact reduce_max_row y _ b h z hy

/-- … and so is the maximum the program subtracts. -/
theorem max_at (x0 : (⟨S8192x1x128, .f32⟩ : BufTy).Contents (Elt Ideal)) (x1 x3 x4 : (⟨S8192x81x128, .f32⟩ : BufTy).Contents (Elt Ideal))
    (b : Fin 8192) (h : Fin 4) (z : Fin 1) :
    val_main_v25 (F := Ideal) x0 x1 x3 x4 (ix3 b h z) = rowMax (splitScore (qRow x0 b) (kvRow x1 b) (kvRow x4 b) (kvRow x3 b) h) := by
  rw [val_main_v25_apply, val_main_v24_apply, val_main_cst_4_apply, reduce_max_at]
  exact max_negInf_rowMax _

/-! ## The softmax weights

The maximum and the sum of exponentials live at (b, h, 0); two broadcasts bring them to every position (b, h, 0, j). -/

theorem idx_bcast_max (b : Fin 8192) (h : Fin 4) (z : Fin 1) (j : Fin 81) :
    idx_main_v26 (idx_main_v27 (ix4 b h z j)) = ix3 b h (0 : Fin 1) :=
  funext fun a => Fin.ext (by match a with | ⟨0, _⟩ => rfl | ⟨1, _⟩ => rfl | ⟨2, _⟩ => rfl)

theorem idx_bcast_sum (b : Fin 8192) (h : Fin 4) (z : Fin 1) (j : Fin 81) :
    idx_main_v31 (idx_main_v32 (ix4 b h z j)) = ix3 b h (0 : Fin 1) :=
  funext fun a => Fin.ext (by match a with | ⟨0, _⟩ => rfl | ⟨1, _⟩ => rfl | ⟨2, _⟩ => rfl)

theorem idx_expsum (b : Fin 8192) (h : Fin 4) (z : Fin 1) (k : Fin 81) :
    idx_main_v30 (ix3 b h z) k = ix4 b h z k :=
  funext fun a => Fin.ext (by match a with | ⟨0, _⟩ => rfl | ⟨1, _⟩ => rfl | ⟨2, _⟩ => rfl | ⟨3, _⟩ => rfl)

/-- The exponential at (b, h, 0, j): of the score less the row maximum. -/
theorem exp_at (x0 : (⟨S8192x1x128, .f32⟩ : BufTy).Contents (Elt Ideal)) (x1 x3 x4 : (⟨S8192x81x128, .f32⟩ : BufTy).Contents (Elt Ideal))
    (b : Fin 8192) (h : Fin 4) (z : Fin 1) (j : Fin 81) :
    val_main_v29 (F := Ideal) x0 x1 x3 x4 (ix4 b h z j)
      = Ideal.exp ((splitScore (qRow x0 b) (kvRow x1 b) (kvRow x4 b) (kvRow x3 b) h) j - rowMax (splitScore (qRow x0 b) (kvRow x1 b) (kvRow x4 b) (kvRow x3 b) h)) := by
  rw [val_main_v29_apply, val_main_v28_apply, val_main_v27_apply, val_main_v26_apply, idx_bcast_max, max_at, logit_at]
  rfl

/-- The sum of the 81 exponentials at (b, h, 0); it starts from the zero word. -/
theorem expsum_at (x0 : (⟨S8192x1x128, .f32⟩ : BufTy).Contents (Elt Ideal)) (x1 x3 x4 : (⟨S8192x81x128, .f32⟩ : BufTy).Contents (Elt Ideal))
    (b : Fin 8192) (h : Fin 4) (z : Fin 1) :
    val_main_v30 (F := Ideal) x0 x1 x3 x4 (ix3 b h z)
      = ∑ j : Fin 81, Ideal.exp ((splitScore (qRow x0 b) (kvRow x1 b) (kvRow x4 b) (kvRow x3 b) h) j - rowMax (splitScore (qRow x0 b) (kvRow x1 b) (kvRow x4 b) (kvRow x3 b) h)) := by
  rw [val_main_v30_apply, val_main_cst_5_apply]
  simp only [idx_expsum, exp_at, Ideal.ofBits_def, Ideal.ofBits_zero_f32, zero_add]

/-- The quotient at (b, h, 0, j) is the softmax weight of position j. -/
theorem weight_at (x0 : (⟨S8192x1x128, .f32⟩ : BufTy).Contents (Elt Ideal)) (x1 x3 x4 : (⟨S8192x81x128, .f32⟩ : BufTy).Contents (Elt Ideal))
    (b : Fin 8192) (h : Fin 4) (z : Fin 1) (j : Fin 81) :
    val_main_v33 (F := Ideal) x0 x1 x3 x4 (ix4 b h z j) = weight (splitScore (qRow x0 b) (kvRow x1 b) (kvRow x4 b) (kvRow x3 b) h) j := by
  rw [val_main_v33_apply, val_main_v32_apply, val_main_v31_apply, idx_bcast_sum, expsum_at, exp_at]
  rfl

/-! ## The weighted sum of the values, and the way back to 128 lanes -/

theorem lidx_out (b : Fin 8192) (h : Fin 4) (z : Fin 1) (d : Fin 32) (k : Fin 81) :
    lidx_main_v34 (ix4 b h z d) k = ix4 b h z k :=
  funext fun a => Fin.ext (by match a with | ⟨0, _⟩ => rfl | ⟨1, _⟩ => rfl | ⟨2, _⟩ => rfl | ⟨3, _⟩ => rfl)

theorem ridx_out (b : Fin 8192) (h : Fin 4) (z : Fin 1) (d : Fin 32) (k : Fin 81) :
    ridx_main_v34 (ix4 b h z d) k = ix4 b h k d :=
  funext fun a => Fin.ext (by match a with | ⟨0, _⟩ => rfl | ⟨1, _⟩ => rfl | ⟨2, _⟩ => rfl | ⟨3, _⟩ => rfl)

/-- The last batched product at (b, h, 0, d): the weights of head h against lane 32h+d of the 81 value rows. -/
theorem out_at (x0 : (⟨S8192x1x128, .f32⟩ : BufTy).Contents (Elt Ideal)) (x1 x2 x3 x4 : (⟨S8192x81x128, .f32⟩ : BufTy).Contents (Elt Ideal))
    (b : Fin 8192) (h : Fin 4) (z : Fin 1) (d : Fin 32) :
    val_main_v34 (F := Ideal) x0 x1 x2 x3 x4 (ix4 b h z d)
      = attend (splitScore (qRow x0 b) (kvRow x1 b) (kvRow x4 b) (kvRow x3 b) h) (fun j => x2 (ix3 b j (lane h d))) := by
  rw [val_main_v34_apply]
  simp only [lidx_out, ridx_out, weight_at, v_at]
  rfl

/-- Lane c of the result is position c mod 32 of head c / 32. -/
theorem idx_result (b : Fin 8192) (z : Fin 1) (c : Fin 128) :
    idx_main_v35 (idx_main_v36 (ix3 b z c)) = ix4 b (headOf c) (0 : Fin 1) (posOf c) := by
  refine funext fun a => Fin.ext ?_
  have hb := b.isLt; have hz := z.isLt; have hc := c.isLt
  match a with
  | ⟨0, _⟩ => show ((b.val * 1 + z.val) * 128 + c.val) / 128 = b.val; omega
  | ⟨1, _⟩ => show ((b.val * 1 + z.val) * 128 + c.val) / 32 % 4 = c.val / 32; omega
  | ⟨2, _⟩ => rfl
  | ⟨3, _⟩ => show ((b.val * 1 + z.val) * 128 + c.val) % 32 = c.val % 32; omega

/-- The result at (b, 0, c). -/
theorem result_at (x0 : (⟨S8192x1x128, .f32⟩ : BufTy).Contents (Elt Ideal)) (x1 x2 x3 x4 : (⟨S8192x81x128, .f32⟩ : BufTy).Contents (Elt Ideal))
    (b : Fin 8192) (z : Fin 1) (c : Fin 128) :
    val_main_v36 (F := Ideal) x0 x1 x2 x3 x4 (ix3 b z c) = outSplit x0 x1 x2 x3 x4 (ix3 b z c) := by
  rw [val_main_v36_apply, val_main_v35_apply, idx_result, out_at, lane_headOf_posOf]
  rfl

/-- The reference's last stage is the split-score attention of its five arguments. -/
theorem result_eq (x0 : (⟨S8192x1x128, .f32⟩ : BufTy).Contents (Elt Ideal)) (x1 x2 x3 x4 : (⟨S8192x81x128, .f32⟩ : BufTy).Contents (Elt Ideal)) :
    val_main_v36 (F := Ideal) x0 x1 x2 x3 x4 = outSplit x0 x1 x2 x3 x4 := by
  funext i
  rw [eq_ix3 i]
  exact result_at x0 x1 x2 x3 x4 (i 0) (i 1) (i 2)

end Cert.ReferenceIdeal.RefValue

end
-- ==== Proof.Finite.lean ====
/-
  From the precondition to real entries.

  The precondition says of each of the five arrays that every entry's absolute value is below +∞. On the extended reals
  that leaves exactly the real numbers: +∞ fails the strict comparison, and −∞ has absolute value +∞.
-/
import proofs.«103271_j88862873354524_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Real

open Cert.Pre_finite_inputs Cert.Pre_finite_inputs.Gen Idealize.ShloMosaic Idealize.ShloMosaic.ValueIdx

/-- The rank-0 shape has one index. -/
instance : Subsingleton S_.Idx := ⟨fun a b => funext fun d => d.elim0⟩

/-- The f32 pattern 0x7F800000 is +∞. -/
theorem posInf : Ideal.ofBits .f32 0x7F800000#32 = ⊤ := by simp [Ideal.ofBits, Ideal.ieee]

/-- An extended real whose absolute value is strictly below +∞ is a real number. -/
theorem real_of_abs_lt (a : EReal) (h : Ideal.cmp .olt (max a (-a)) (Ideal.ofBits .f32 0x7F800000#32) = 1#1) :
    ∃ r : ℝ, a = (r : EReal) := by
  rw [posInf] at h
  induction a using EReal.rec with
  | bot => simp [Ideal.cmp] at h
  | top => simp [Ideal.cmp] at h
  | coe r => exact ⟨r, rfl⟩

/-- One array's conjunct: if `jnp.all(|x| < +∞)` is 1 then every entry of `x` is real. -/
theorem real_of_all {s : Shape} (x : FVec Ideal s .f32) (hb : S_.BroadcastsInDim s (![] : Fin 0 → Fin s.rank))
    (axes : List (Fin s.rank)) (h : s.ReducesTo axes S_) (hu : 0 < S_.numel)
    (init : IVec S_ 1)
    (e : Host.reduce IntOp.andi (cmpf .olt (Host.absf x) (broadcastInDim s ![] hb (constant (F := Ideal) S_ .f32 0x7F800000#32))) init h hu ix0 = 1#1)
    (i : s.Idx) : ∃ r : ℝ, x i = (r : EReal) :=
  real_of_abs_lt (x i) (Host.reduce_andi_all _ init h hu ix0 e i)

/-- Under the precondition every entry of the query, keys, relative queries and relative keys is a real number. -/
theorem real_of_pre (x0 : FVec Ideal S8192x1x128 .f32) (x1 x2 x3 x4 : FVec Ideal S8192x81x128 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal))
      ∧ (∀ i, ∃ r : ℝ, x3 i = (r : EReal)) ∧ (∀ i, ∃ r : ℝ, x4 i = (r : EReal)) := by
  have h0 := congrFun h ix0
  unfold Cert.Pre_finite_inputs.fn Cert.Pre_finite_inputs.fn_part1 at h0
  dsimp only at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => real_of_all x0 _ _ _ _ _ e0 i, fun i => real_of_all x1 _ _ _ _ _ e1 i,
    fun i => real_of_all x3 _ _ _ _ _ e3 i, fun i => real_of_all x4 _ _ _ _ _ e4 i⟩

end Cert.Pre_finite_inputs.Real

end
-- ==== Proof.lean ====
/-
  The certificate of the windowed relative-position attention kernel against its jnp reference.

  Both programs compute, for every batch row and every lane 32·head+position, the softmax-weighted sum over the 81
  window positions of that lane of the values (Spec: `attend`). They differ only in how a position's score under a head
  is formed: the kernel sums `(q·(k + kr) + qr·k)·s` over the head's 32 lanes in one pass; the reference forms the three
  sums `Σ q·k`, `Σ q·kr`, `Σ qr·k` separately, scales each by `s` and adds them. On real entries the two scores are equal
  by distributivity (Spec: `fusedScore_eq_splitScore`), and the precondition makes every entry real; from equal scores on,
  both sides apply the same maximum, exponentials, sum, quotient and weighted sum.

  The kernel program's result array is read off its run block by block (KernelArray over KernelBlock and HeadSoftmax);
  the reference's result is read stage by stage (RefValue); the precondition is decoded in Finite. The kernel's
  idealization rewrote nothing, so `preserves` has nothing to state.
-/
import proofs.«103271_j88862873354524_2_alg».proof.Defs
import proofs.«103271_j88862873354524_2_alg».proof.Proof.Gen.Kernel.Frame
import proofs.«103271_j88862873354524_2_alg».proof.Proof.Gen.KernelIdeal.Frame
import proofs.«103271_j88862873354524_2_alg».proof.Proof.Gen.ReferenceIdeal.Run
import proofs.«103271_j88862873354524_2_alg».proof.Proof.Gen.ReferenceIdeal.Read
import proofs.«103271_j88862873354524_2_alg».proof.Proof.Gen.Pre_finite_inputs
import proofs.«103271_j88862873354524_2_alg».proof.Proof.Spec
import proofs.«103271_j88862873354524_2_alg».proof.Proof.KernelArray
import proofs.«103271_j88862873354524_2_alg».proof.Proof.RefValue
import proofs.«103271_j88862873354524_2_alg».proof.Proof.Finite

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, both programs end at the fused-score attention of the kernel's
    arguments: the kernel by its run, the reference at the split-score attention, which on real entries is the same. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hQ, hK, hQr, hKr⟩ := Cert.Pre_finite_inputs.Real.real_of_pre _ _ _ _ _ (hpre c)
  rw [Cert.ReferenceIdeal.Read.val_main_v36_eq, Cert.ReferenceIdeal.RefValue.result_eq, (hagree c).1, (hagree c).2.1,
    (hagree c).2.2.1, (hagree c).2.2.2.1, (hagree c).2.2.2.2]
  exact (Cert.RelAttn.outFused_eq_outSplit _ _ _ _ _ hQ hK hQr hKr).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
